-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1024 : Shape := ⟨2, ![1, 1024]⟩
abbrev S128x65 : Shape := ⟨2, ![128, 65]⟩
abbrev S128 : Shape := ⟨1, ![128]⟩
abbrev S_ : Shape := ⟨0, ![]⟩

class Facts : Prop where
  bcast_S_S128x65 : S_.BroadcastsInDim S128x65 (![] : Fin 0 → Fin S128x65.rank)
  reducesTo_S128x65_S_d0_1 : S128x65.ReducesTo [0, 1] S_
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : IVec S1x1024 32) (main_arg1 : FVec F S128x65 .f32) (main_arg2 : FVec F S128 .f32) : IVec S_ 1 :=
  let main_v0 : FVec F S128x65 .f32 := Host.absf main_arg1
  let main_cst : FVec F S_ .f32 := constant S_ .f32 0x7F800000#32
  let main_v1 : FVec F S128x65 .f32 := broadcastInDim S128x65 ![] bcast_S_S128x65 main_cst
  let main_v2 : IVec S128x65 1 := cmpf .olt main_v0 main_v1
  let main_c : IVec S_ 1 := constantI S_ 1 1#1
  let main_v3 : IVec S_ 1 := (fun x v => Host.reduce IntOp.andi x v reducesTo_S128x65_S_d0_1 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  main_v8
-- ==== Kernel.lean ====
abbrev S1x1024 : Shape := ⟨2, ![1, 1024]⟩
abbrev S128x65 : Shape := ⟨2, ![128, 65]⟩
abbrev S128 : Shape := ⟨1, ![128]⟩
abbrev S1024 : Shape := ⟨1, ![1024]⟩
abbrev S1024x1 : Shape := ⟨2, ![1024, 1]⟩
abbrev S65x128 : Shape := ⟨2, ![65, 128]⟩
abbrev S1x1024x1024x128 : Shape := ⟨4, ![1, 1024, 1024, 128]⟩
abbrev S128x1 : Shape := ⟨2, ![128, 1]⟩
abbrev S1x128 : Shape := ⟨2, ![1, 128]⟩
abbrev S1x128x128x128 : Shape := ⟨4, ![1, 128, 128, 128]⟩
abbrev S128x128 : Shape := ⟨2, ![128, 128]⟩
abbrev S128x128x65 : Shape := ⟨3, ![128, 128, 65]⟩
abbrev S128x128x1 : Shape := ⟨3, ![128, 128, 1]⟩
abbrev S16384x65 : Shape := ⟨2, ![16384, 65]⟩
abbrev S16384x128 : Shape := ⟨2, ![16384, 128]⟩
abbrev S128x128x128 : Shape := ⟨3, ![128, 128, 128]⟩
abbrev S1x1x128 : Shape := ⟨3, ![1, 1, 128]⟩

abbrev nBuf : Space → Nat
  | .hbm => 8
  | .vmem => 8
  | .smem => 0
  | _ => 0

abbrev bufTy : (tb : Table) → Fin (tcTables nBuf tb) → BufTy
  | .hbm, ⟨0, _⟩ => ⟨S1x1024, .i32⟩
  | .hbm, ⟨1, _⟩ => ⟨S128x65, .f32⟩
  | .hbm, ⟨2, _⟩ => ⟨S128, .f32⟩
  | .hbm, ⟨3, _⟩ => ⟨S1024, .i32⟩
  | .hbm, ⟨4, _⟩ => ⟨S1024x1, .i32⟩
  | .hbm, ⟨5, _⟩ => ⟨S1x1024, .i32⟩
  | .hbm, ⟨6, _⟩ => ⟨S65x128, .f32⟩
  | .hbm, ⟨7, _⟩ => ⟨S1x1024x1024x128, .f32⟩
  | .local _ .vmem, ⟨0, _⟩ => ⟨S128x1, .i32⟩
  | .local _ .vmem, ⟨1, _⟩ => ⟨S128x1, .i32⟩
  | .local _ .vmem, ⟨2, _⟩ => ⟨S1x128, .i32⟩
  | .local _ .vmem, ⟨3, _⟩ => ⟨S1x128, .i32⟩
  | .local _ .vmem, ⟨4, _⟩ => ⟨S65x128, .f32⟩
  | .local _ .vmem, ⟨5, _⟩ => ⟨S128, .f32⟩
  | .local _ .vmem, ⟨6, _⟩ => ⟨S1x128x128x128, .f32⟩
  | .local _ .vmem, ⟨7, _⟩ => ⟨S1x128x128x128, .f32⟩
  | _, _ => ⟨S1x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S128x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S65x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S1x1024_S1024 : S1x1024.ShapeCasts S1024
  shapeCasts_S1024_S1024x1 : S1024.ShapeCasts S1024x1
  shapeCasts_S1024_S1x1024 : S1024.ShapeCasts S1x1024
  transposes_S128x65_S65x128_1_0 : S128x65.Transposes [1, 0] S65x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  broadcasts_S128x1_S128x128 : S128x1.Broadcasts S128x128
  iota_S128x128x65_d2_w32 : S128x128x65.Iotas .tc 32 [2]
  shapeCasts_S128x128_S128x128x1 : S128x128.ShapeCasts S128x128x1
  broadcasts_S128x128x1_S128x128x65 : S128x128x1.Broadcasts S128x128x65
  natLt_1_32 : 1 < 32
  bitsLt_bf16_f32 : FTy.bits .bf16 < FTy.bits .f32
  shapeCasts_S128x128x65_S16384x65 : S128x128x65.ShapeCasts S16384x65
  inb_S65x128_S65x128_0_0 : ∀ a, (![0, 0] : Fin 2 → Nat) a + S65x128.size a ≤ S65x128.size a
  h_S65x128 : 0 < S65x128.numel
  shapeCasts_S65x128_S65x128 : S65x128.ShapeCasts S65x128
  shapeCasts_S16384x128_S128x128x128 : S16384x128.ShapeCasts S128x128x128
  inb_S128_S128_0 : ∀ a, (![0] : Fin 1 → Nat) a + S128.size a ≤ S128.size a
  h_S128 : 0 < S128.numel
  shapeCasts_S128_S1x1x128 : S128.ShapeCasts S1x1x128
  broadcasts_S1x1x128_S128x128x128 : S1x1x128.Broadcasts S128x128x128
  inb_S1x128x128x128_S1x128x128x128_0_0_0_0 : ∀ a, (![0, 0, 0, 0] : Fin 4 → Nat) a + S1x128x128x128.size a ≤ S1x128x128x128.size a
  h_S1x128x128x128 : 0 < S1x128x128x128.numel
  shapeCasts_S1x128x128x128_S128x128x128 : S1x128x128x128.ShapeCasts S128x128x128
  shapeCasts_S128x128x128_S1x128x128x128 : S128x128x128.ShapeCasts S1x128x128x128
  dot_S16384x65_S65x128_S16384x128_1_0_0_1_n_n_wf : DotDims.WF S16384x65 S65x128 S16384x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1.size a ≤ S1024x1.size a
  hwx0_0 : ∀ i : grid0.Coords, EltTy.bits .i32 = 32 ∨ (Rect.block (s := S1024x1) S128x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x1024.size a
  hwx0_1 : ∀ i : grid0.Coords, EltTy.bits .i32 = 32 ∨ (Rect.block (s := S1x1024) S1x128.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S65x128.size a ≤ S65x128.size a
  hwx0_2 : ∀ i : grid0.Coords, EltTy.bits .f32 = 32 ∨ (Rect.block (s := S65x128) S65x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x128x128.size a ≤ S1x1024x1024x128.size a
  hwx0_4 : ∀ i : grid0.Coords, EltTy.bits .f32 = 32 ∨ (Rect.block (s := S1x1024x1024x128) S1x128x128x128.size (cc0_transform_4 i) (hinb0_4 i)).WholeWords (EltTy.packing .f32)

variable [Facts₀]

def dot_S16384x65_S65x128_S16384x128_1_0_0_1_n_n : DotDims S16384x65 S65x128 S16384x128 where
  lhsContracting := [1]
  rhsContracting := [0]
  lhsNonContracting := [0]
  rhsNonContracting := [1]
  lhsBatch := []
  rhsBatch := []
  wf := dot_S16384x65_S65x128_S16384x128_1_0_0_1_n_n_wf

abbrev win0_0 : Pipeline.Window sig grid0 :=
  Pipeline.Window.ofSpec (Memref.whole main_v1) S128x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S65x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x128x128x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1x1024 : Shape := ⟨2, ![1, 1024]⟩
abbrev S128x65 : Shape := ⟨2, ![128, 65]⟩
abbrev S128 : Shape := ⟨1, ![128]⟩
abbrev S1x1x1024 : Shape := ⟨3, ![1, 1, 1024]⟩
abbrev S1x1024x1 : Shape := ⟨3, ![1, 1024, 1]⟩
abbrev S1x1024x1024 : Shape := ⟨3, ![1, 1024, 1024]⟩
abbrev S_ : Shape := ⟨0, ![]⟩
abbrev S65x128 : Shape := ⟨2, ![65, 128]⟩
abbrev S1x1024x1024x1 : Shape := ⟨4, ![1, 1024, 1024, 1]⟩
abbrev S1 : Shape := ⟨1, ![1]⟩
abbrev S1x1x1x1 : Shape := ⟨4, ![1, 1, 1, 1]⟩
abbrev S1x1024x1024x128 : Shape := ⟨4, ![1, 1024, 1024, 128]⟩
abbrev S1x1x1x128 : Shape := ⟨4, ![1, 1, 1, 128]⟩

abbrev nBuf : Space → Nat
  | .hbm => 46
  | .vmem => 0
  | .smem => 0
  | _ => 0

abbrev bufTy : (tb : Table) → Fin (tcTables nBuf tb) → BufTy
  | .hbm, ⟨0, _⟩ => ⟨S1x1024, .i32⟩
  | .hbm, ⟨1, _⟩ => ⟨S128x65, .f32⟩
  | .hbm, ⟨2, _⟩ => ⟨S128, .f32⟩
  | .hbm, ⟨3, _⟩ => ⟨S1x1x1024, .i32⟩
  | .hbm, ⟨4, _⟩ => ⟨S1x1024x1, .i32⟩
  | .hbm, ⟨5, _⟩ => ⟨S1x1024x1024, .i32⟩
  | .hbm, ⟨6, _⟩ => ⟨S1x1024x1024, .i32⟩
  | .hbm, ⟨7, _⟩ => ⟨S1x1024x1024, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S1x1024x1024, .i32⟩
  | .hbm, ⟨12, _⟩ => ⟨S1x1024x1024, .i32⟩
  | .hbm, ⟨13, _⟩ => ⟨S_, .i32⟩
  | .hbm, ⟨14, _⟩ => ⟨S1x1024x1024, .i32⟩
  | .hbm, ⟨15, _⟩ => ⟨S1x1024x1024, .i32⟩
  | .hbm, ⟨16, _⟩ => ⟨S_, .i32⟩
  | .hbm, ⟨17, _⟩ => ⟨S1x1024x1024, .i32⟩
  | .hbm, ⟨18, _⟩ => ⟨S1x1024x1024, .i32⟩
  | .hbm, ⟨19, _⟩ => ⟨S65x128, .f32⟩
  | .hbm, ⟨20, _⟩ => ⟨S_, .i32⟩
  | .hbm, ⟨21, _⟩ => ⟨S1x1024x1024, .i32⟩
  | .hbm, ⟨22, _⟩ => ⟨S1x1024x1024, .i1⟩
  | .hbm, ⟨23, _⟩ => ⟨S_, .i32⟩
  | .hbm, ⟨24, _⟩ => ⟨S1x1024x1024, .i32⟩
  | .hbm, ⟨25, _⟩ => ⟨S1x1024x1024, .i32⟩
  | .hbm, ⟨26, _⟩ => ⟨S1x1024x1024, .i32⟩
  | .hbm, ⟨27, _⟩ => ⟨S1x1024x1024x1, .i32⟩
  | .hbm, ⟨28, _⟩ => ⟨S1, .i32⟩
  | .hbm, ⟨29, _⟩ => ⟨S_, .i32⟩
  | .hbm, ⟨30, _⟩ => ⟨S1x1024x1024x1, .i32⟩
  | .hbm, ⟨31, _⟩ => ⟨S1x1024x1024x1, .i1⟩
  | .hbm, ⟨32, _⟩ => ⟨S1x1x1x1, .i32⟩
  | .hbm, ⟨33, _⟩ => ⟨S1x1024x1024x1, .i32⟩
  | .hbm, ⟨34, _⟩ => ⟨S1x1024x1024x1, .i1⟩
  | .hbm, ⟨35, _⟩ => ⟨S1x1024x1024x1, .i1⟩
  | .hbm, ⟨36, _⟩ => ⟨S_, .i1⟩
  | .hbm, ⟨37, _⟩ => ⟨S1x1024x1024, .i1⟩
  | .hbm, ⟨38, _⟩ => ⟨S1x1024x1024x128, .f32⟩
  | .hbm, ⟨39, _⟩ => ⟨S1x1024x1024x128, .i1⟩
  | .hbm, ⟨40, _⟩ => ⟨S_, .f32⟩
  | .hbm, ⟨41, _⟩ => ⟨S1x1024x1024x128, .f32⟩
  | .hbm, ⟨42, _⟩ => ⟨S1x1024x1024x128, .f32⟩
  | .hbm, ⟨43, _⟩ => ⟨S1x1x1x128, .f32⟩
  | .hbm, ⟨44, _⟩ => ⟨S1x1024x1024x128, .f32⟩
  | .hbm, ⟨45, _⟩ => ⟨S1x1024x1024x128, .f32⟩
  | _, _ => ⟨S1x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_v14 : Ref sig .tc := ⟨.hbm, 39, rfl⟩
abbrev main_call1_cst : Ref sig .tc := ⟨.hbm, 40, rfl⟩
abbrev main_call1_v15 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩

abbrev nD : Nat := 1
abbrev τ : Topo := Topo.v7x

variable {F : FTy → Type} [FloatOps F]

class Facts₀ : Prop where
  bcast_S1x1024_S1x1x1024_0_2 : S1x1024.BroadcastsInDim S1x1x1024 (![0, 2] : Fin 2 → Fin S1x1x1024.rank)
  bcast_S1x1024_S1x1024x1_0_1 : S1x1024.BroadcastsInDim S1x1024x1 (![0, 1] : Fin 2 → Fin S1x1024x1.rank)
  bcast_S1x1x1024_S1x1024x1024_0_1_2 : S1x1x1024.BroadcastsInDim S1x1024x1024 (![0, 1, 2] : Fin 3 → Fin S1x1024x1024.rank)
  bcast_S1x1024x1_S1x1024x1024_0_1_2 : S1x1024x1.BroadcastsInDim S1x1024x1024 (![0, 1, 2] : Fin 3 → Fin S1x1024x1024.rank)
  bcast_S_S1x1024x1024 : S_.BroadcastsInDim S1x1024x1024 (![] : Fin 0 → Fin S1x1024x1024.rank)
  transposes_S128x65_S65x128_1_0 : S128x65.Transposes [1, 0] S65x128
  bcast_S1x1024x1024_S1x1024x1024x1_0_1_2 : S1x1024x1024.BroadcastsInDim S1x1024x1024x1 (![0, 1, 2] : Fin 3 → Fin S1x1024x1024x1.rank)
  bcast_S_S1x1024x1024x1 : S_.BroadcastsInDim S1x1024x1024x1 (![] : Fin 0 → Fin S1x1024x1024x1.rank)
  bcast_S1_S1x1x1x1_3 : S1.BroadcastsInDim S1x1x1x1 (![3] : Fin 1 → Fin S1x1x1x1.rank)
  bcast_S1x1x1x1_S1x1024x1024x1_0_1_2_3 : S1x1x1x1.BroadcastsInDim S1x1024x1024x1 (![0, 1, 2, 3] : Fin 4 → Fin S1x1024x1024x1.rank)
  reducesTo_S1x1024x1024x1_S1x1024x1024_d3 : S1x1024x1024x1.ReducesTo [3] S1x1024x1024
  h_S_ : 0 < S_.numel
  bcast_S1x1024x1024_S1x1024x1024x128_0_1_2 : S1x1024x1024.BroadcastsInDim S1x1024x1024x128 (![0, 1, 2] : Fin 3 → Fin S1x1024x1024x128.rank)
  bcast_S_S1x1024x1024x128 : S_.BroadcastsInDim S1x1024x1024x128 (![] : Fin 0 → Fin S1x1024x1024x128.rank)
  bcast_S128_S1x1x1x128_3 : S128.BroadcastsInDim S1x1x1x128 (![3] : Fin 1 → Fin S1x1x1x128.rank)
  bcast_S1x1x1x128_S1x1024x1024x128_0_1_2_3 : S1x1x1x128.BroadcastsInDim S1x1024x1024x128 (![0, 1, 2, 3] : Fin 4 → Fin S1x1024x1024x128.rank)
  gather_S65x128_S1x1024x1024x1_S1x1024x1024x128_3_0_n_n_0_3_1128_wf : GatherDims.WF S65x128 S1x1024x1024x1 S1x1024x1024x128 [3] [0] [] [0] [] 3 ![1, 128]

variable [Facts₀]

def gather_S65x128_S1x1024x1024x1_S1x1024x1024x128_3_0_n_n_0_3_1128 : GatherDims S65x128 S1x1024x1024x1 S1x1024x1024x128 where
  offsetDims := [3]
  collapsedSliceDims := [0]
  operandBatchingDims := []
  startIndicesBatchingDims := []
  startIndexMap := [0]
  indexVectorDim := 3
  sliceSizes := ![1, 128]
  wf := gather_S65x128_S1x1024x1024x1_S1x1024x1024x128_3_0_n_n_0_3_1128_wf

class Facts : Prop extends Facts₀ where

variable [Facts]
-- ==== Proof.RelPos.lean ====
/-
  A table of relative-position embeddings, as ONE function of the arguments.

  For a row of index words `idxs`, a weight matrix `W` (128 × 65) and a bias `b` (128), entry (0, i, j, e) of the
  result is  W (e, pos) + b e,  where  pos = clip (idxs j − idxs i, −32, 32) + 32  is a row of the transposed weights:
  the difference wraps at 32 bits, the clip reads it signed, so the clipped gap lies in [−32, 32] whatever the two
  words are, and  pos  lies in [0, 64] with no wrap in the final shift.

  Two ways of reading row `pos` of the transposed weights are used against this function. A gather reads it directly.
  A product of a ONE-HOT row — the 65 numbers [pos = n], each 0 or 1 — with the transposed weights is the sum
  ∑ n < 65, [pos = n] · W (e, n), whose terms vanish but the one at n = pos (on the extended reals 0 · x = 0 for every
  x, infinite or not): the same entry.
-/
import Idealize.ShloMosaic.PureOps.Ideal
import Idealize.ShloMosaic.Lib.ValueIdx

noncomputable section

open scoped BigOperators

namespace Cert.RelPos

open Idealize.ShloMosaic Idealize.ShloMosaic.ValueIdx

/-! ## The clipped gap of two index words -/

/-- The gap `b − a` of two index words (wrapping at 32 bits), clipped to [−32, 32] read signed: the larger of −32 and
    the gap, then the smaller of 32 and that. -/
def clipWord (a b : BitVec 32) : BitVec 32 :=
  IntOp.minsi 32#32 (IntOp.maxsi 4294967264#32 (IntOp.subi b a))

/-- The table row the pair (a, b) reads: the clipped gap shifted by 32. -/
def posWord (a b : BitVec 32) : BitVec 32 := IntOp.addi (clipWord a b) 32#32

/-- Whatever the two words are, the clipped gap read signed lies in [−32, 32]. -/
theorem clipWord_range (a b : BitVec 32) : -32 ≤ (clipWord a b).toInt ∧ (clipWord a b).toInt ≤ 32 := by
  have hm : (4294967264#32 : BitVec 32).toInt = -32 := by decide
  have hp : (32#32 : BitVec 32).toInt = 32 := by decide
  unfold clipWord IntOp.minsi IntOp.maxsi
  by_cases h1 : (IntOp.subi b a).slt 4294967264#32
  · rw [if_pos h1]
    by_cases h2 : (32#32 : BitVec 32).slt 4294967264#32
    · rw [if_pos h2, hp]; omega
    · rw [if_neg h2, hm]; omega
  · rw [if_neg h1]
    by_cases h2 : (32#32 : BitVec 32).slt (IntOp.subi b a)
    · rw [if_pos h2, hp]; omega
    · rw [if_neg h2]
      simp only [BitVec.slt, decide_eq_true_eq, hm, hp] at h1 h2
      omega

/-- The shift by 32 does not wrap: read signed, the row is the clipped gap plus 32. -/
theorem posWord_toInt (a b : BitVec 32) : (posWord a b).toInt = (clipWord a b).toInt + 32 := by
  have hp : (32#32 : BitVec 32).toInt = 32 := by decide
  have hr := clipWord_range a b
  unfold posWord IntOp.addi
  rw [BitVec.toInt_add, hp]
  exact Int.bmod_eq_of_le (by omega) (by omega)

/-- The row lies in [0, 64]. -/
theorem posWord_range (a b : BitVec 32) : 0 ≤ (posWord a b).toInt ∧ (posWord a b).toInt ≤ 64 := by
  have hr := clipWord_range a b
  rw [posWord_toInt]; omega

/-- Read signed or unsigned the row is the same number. -/
theorem posWord_toInt_eq_toNat (a b : BitVec 32) : (posWord a b).toInt = ((posWord a b).toNat : Int) := by
  have hr := posWord_range a b
  have hlt := (posWord a b).isLt
  rw [BitVec.toInt_eq_toNat_cond] at hr ⊢
  by_cases h : 2 * (posWord a b).toNat < 2 ^ 32
  · rw [if_pos h]
  · rw [if_neg h] at hr
    omega

theorem posWord_toNat_lt (a b : BitVec 32) : (posWord a b).toNat < 65 := by
  have hr := posWord_range a b
  rw [posWord_toInt_eq_toNat] at hr
  omega

/-- The table row of the pair (a, b), as an index of the 65 rows. -/
def pos (a b : BitVec 32) : Fin 65 := ⟨(posWord a b).toNat, posWord_toNat_lt a b⟩

theorem pos_val (a b : BitVec 32) : ((pos a b).val : Int) = (posWord a b).toInt := (posWord_toInt_eq_toNat a b).symm

/-- Among the 65 row numbers exactly `pos a b` is the word `posWord a b`. -/
theorem posWord_eq_ofNat_iff (a b : BitVec 32) (n : Fin 65) : posWord a b = BitVec.ofNat 32 n.val ↔ n = pos a b := by
  have hn := n.isLt
  constructor
  · intro h
    apply Fin.ext
    show n.val = (posWord a b).toNat
    rw [h, BitVec.toNat_ofNat]
    exact (Nat.mod_eq_of_lt (by omega)).symm
  · intro h
    subst h
    apply BitVec.eq_of_toNat_eq
    rw [BitVec.toNat_ofNat]
    exact (Nat.mod_eq_of_lt (by have := (posWord a b).isLt; omega)).symm

/-! ## The result, index by index -/

/-- Entry (0, i, j, e): row `pos (idxs i) (idxs j)` of the transposed weights at column e, plus the bias at e. -/
def G (idxs : IVec ⟨2, ![1, 1024]⟩ 32) (W : (⟨2, ![128, 65]⟩ : Shape).Idx → EReal) (bias : (⟨1, ![128]⟩ : Shape).Idx → EReal) :
    (⟨4, ![1, 1024, 1024, 128]⟩ : Shape).Idx → EReal :=
  fun i => W (ix2 (i 3) (pos (idxs (ix2 0 (i 1))) (idxs (ix2 0 (i 2))))) + bias (ix1 (i 3))

/-! ## A one-hot row against a column -/

/-- The indicator [w = n] as an integer compare widened to 32 bits and read signed: 1 where the words agree, else 0. -/
theorem indicator_toInt (w v : BitVec 32) :
    ((IntOp.cmpi .eq w v).setWidth 32).toInt = if w = v then 1 else 0 := by
  unfold IntOp.cmpi
  by_cases h : w = v
  · subst h; simp
  · rw [if_neg h]
    have : (w == v) = false := by simpa using h
    simp [this]

/-- A one-hot row times a column is the column's entry at the hot position: the other 64 terms are 0 · x = 0. -/
theorem onehot_sum (a b : BitVec 32) (f : Fin 65 → EReal) :
    ∑ n : Fin 65, ((((IntOp.cmpi .eq (posWord a b) (BitVec.ofNat 32 n.val)).setWidth 32).toInt : ℝ) : EReal) * f n = f (pos a b) := by
  rw [Finset.sum_eq_single (pos a b)]
  · rw [indicator_toInt, if_pos ((posWord_eq_ofNat_iff a b _).mpr rfl)]
    simp
  · intro n _ hn
    rw [indicator_toInt, if_neg (fun h => hn ((posWord_eq_ofNat_iff a b n).mp h))]
    simp
  · intro h; exact absurd (Finset.mem_univ _) h

end Cert.RelPos

end
-- ==== Proof.LibDotRowsCols.lean ====
/-
  A product of an array of rows with an array of columns, read at one entry.

  For dimension numbers that contract the left operand's axis 1 with the right operand's axis 0, keep the left
  operand's axis 0 and the right operand's axis 1, and batch nothing — the plain product  l · w  of an [n × K] array
  with a [K × c] array — the operand indices at result entry (r, v) and contraction position q are (r, q) and (q, v).
  So both the accumulate-into-zero `tpu.matmul` and the host's `dot_general` are, at the ideal values, the entry's
  plain sum  ∑ q < K, l (r, q) · w (q, v)  over the shared axis: the same extended real whatever the number of rows of
  the left operand. This identifies a product computed a block of the left operand's rows at a time with the whole
  product.
-/
import Idealize.ShloMosaic.PureOps.Ideal.Laws
import Idealize.ShloMosaic.Lib.ValueIdx

noncomputable section

open scoped BigOperators

namespace Cert.Lib.DotRowsCols

open Idealize.ShloMosaic Idealize.ShloMosaic.ValueIdx

variable {n K c : Nat}

/-- Dimension numbers of a rows-by-columns product [n, K] × [K, c] → [n, c]: contract left axis 1 with right axis 0,
    result rows from the left operand's rows, result columns from the right operand's columns, no batch axis. -/
structure RowsCols (d : DotDims ⟨2, ![n, K]⟩ ⟨2, ![K, c]⟩ ⟨2, ![n, c]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![n, K]⟩ ⟨2, ![K, c]⟩ ⟨2, ![n, c]⟩}

/-- Reading a multi-index at two equal positions gives the same coordinate. -/
private theorem val_congr {s : Shape} (j : s.Idx) (p q : Nat) (hp : p < s.rank) (hq : q < s.rank) (h : p = q) :
    (j ⟨p, hp⟩).val = (j ⟨q, hq⟩).val := by subst h; rfl

/-- One axis is contracted. -/
theorem RowsCols.rank_contr (h : RowsCols d) : d.contr.rank = 1 := by rw [d.rank_contr, h.lc]; rfl

/-- The contracted axis has the shared length K. -/
theorem RowsCols.size_contr (h : RowsCols d) : d.contr.size ⟨0, by rw [h.rank_contr]; exact Nat.one_pos⟩ = K := by
  have := d.size_contr 0 (by rw [h.lc]; exact Nat.one_pos)
  rw [this]; simp only [h.lc]; rfl

/-- The left operand's row is the result's row. -/
theorem RowsCols.lhs_row (h : RowsCols d) (j : (⟨2, ![n, c]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact val_congr j _ _ _ _ (by simp [h.lb, h.ln])

/-- The left operand's column is the contraction position. -/
theorem RowsCols.lhs_col (h : RowsCols d) (j : (⟨2, ![n, c]⟩ : Shape).Idx) (k : d.contr.Idx) :
    (d.lhsIdx j k 1).val = (k ⟨0, by rw [h.rank_contr]; exact Nat.one_pos⟩).val :=
  d.lhsIdx_val_of_single h.lc j k

/-- The right operand's row is the contraction position. -/
theorem RowsCols.rhs_row (h : RowsCols d) (j : (⟨2, ![n, c]⟩ : Shape).Idx) (k : d.contr.Idx) :
    (d.rhsIdx j k 0).val = (k ⟨0, by rw [h.rank_contr]; exact Nat.one_pos⟩).val :=
  d.rhsIdx_val_of_single h.rc j k

/-- The right operand's column is the result's column: its axis 1 is kept, and comes after the left operand's one
    kept axis among the result's axes. -/
theorem RowsCols.rhs_col (h : RowsCols d) (j : (⟨2, ![n, c]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact val_congr j _ _ _ _ (by simp [h.lb, h.ln, h.rn])

/-- The contraction's sum, re-indexed by the shared axis: ∑ q < K, l (r, q) · w (q, v). -/
theorem RowsCols.sum_eq (h : RowsCols d) (l : (⟨2, ![n, K]⟩ : Shape).Idx → EReal) (w : (⟨2, ![K, c]⟩ : Shape).Idx → EReal)
    (j : (⟨2, ![n, c]⟩ : Shape).Idx) :
    ∑ k : d.contr.Idx, l (d.lhsIdx j k) * w (d.rhsIdx j k) = ∑ q : Fin K, l (ix2 (j 0) q) * w (ix2 q (j 1)) := by
  -- the one contracted axis, of length K, is indexed by Fin K
  rw [← Equiv.sum_comp (contrEquiv1 d K h.rank_contr h.size_contr).symm]
  refine Finset.sum_congr rfl fun q _ => ?_
  have hk := contrEquiv1_symm_val d K h.rank_contr h.size_contr q
  -- left operand at (result row, q)
  have e1 : d.lhsIdx j ((contrEquiv1 d K h.rank_contr h.size_contr).symm q) = ix2 (j 0) q := by
    funext a
    match a with
    | ⟨0, _⟩ => exact Fin.ext (h.lhs_row j _)
    | ⟨1, _⟩ => exact Fin.ext ((h.lhs_col j _).trans hk)
  -- right operand at (q, result column)
  have e2 : d.rhsIdx j ((contrEquiv1 d K h.rank_contr h.size_contr).symm q) = ix2 q (j 1) := by
    funext a
    match a with
    | ⟨0, _⟩ => exact Fin.ext ((h.rhs_row j _).trans hk)
    | ⟨1, _⟩ => exact Fin.ext (h.rhs_col j _)
  exact congrArg₂ (· * ·) (congrArg l e1) (congrArg w e2)

/-- `tpu.matmul` into the zero accumulator, at an entry, at the ideal values (operands of any float formats). -/
theorem RowsCols.matmul_zero_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    matmul (F := Ideal) d prec l w (constant ⟨2, ![n, c]⟩ .f32 0x00000000#32) j
      = ∑ q : Fin K, l (ix2 (j 0) q) * w (ix2 q (j 1)) :=
  (Ideal.matmul_constant_zero_apply d prec l w j).trans (h.sum_eq l w j)

/-- The host's `dot_general`, at an entry, at the ideal values. -/
theorem RowsCols.dotGeneral_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    Host.dotGeneral (F := Ideal) d prec l w j = ∑ q : Fin K, l (ix2 (j 0) q) * w (ix2 q (j 1)) :=
  (Ideal.dotGeneral_apply d prec .single l w j).trans (h.sum_eq l w j)

end Cert.Lib.DotRowsCols

end
-- ==== Proof.KernelEntry.lean ====
/-
  One entry of what the kernel body stores, over the extended reals.

  At a grid point the body holds a column of 128 row words (x0), a row of 128 column words (x1), the whole transposed
  weights (x2, 65 × 128) and the bias (x3). For local coordinates (p, q) it forms the table row
  posWord (x0 p) (x1 q), compares it with 0 … 64 to make a one-hot row of 65 zeros and ones, lays the 128 × 128 one-hot
  rows out as a 16384 × 65 array (row 128·p + q), multiplies that by the transposed weights and adds the bias along
  the last axis. The product's entry (128·p + q, e) is the sum over n < 65 of [row = n] · x2 (n, e), which is
  x2 (row, e): so the stored entry (0, p, q, e) is x2 (row, e) + x3 e.
-/
import proofs.«430985_j23416161698179_1_alg».proof.Proof.Gen.KernelIdeal.Skeleton
import proofs.«430985_j23416161698179_1_alg».proof.Proof.RelPos
import proofs.«430985_j23416161698179_1_alg».proof.Proof.LibDotRowsCols
import Idealize.ShloMosaic.Lib.Pipeline.Value
import Idealize.ShloMosaic.Lib.ValueIdx

noncomputable section

open scoped BigOperators

namespace Cert.KernelIdeal.Entry

open Cert.KernelIdeal Cert.KernelIdeal.Gen Idealize.ShloMosaic Idealize.ShloMosaic.ValueIdx

/-- Row 128·p + q of the flattened one-hot array. -/
def flatRow (p q : Fin 128) : Fin 16384 := ⟨p.val * 128 + q.val, by have := p.isLt; have := q.isLt; omega⟩

/-- The block of table rows: at (p, q) the clipped, shifted gap of row word p and column word q. -/
theorem rows_apply (x0 : IVec S128x1 32) (x1 : IVec S1x128 32)
    (h0 : S128x1.ShapeCasts S128x1) (h1 : S1x128.ShapeCasts S1x128)
    (b0 : S128x1.Broadcasts S128x128) (b1 : S1x128.Broadcasts S128x128) (p q : Fin 128) :
    addi (minsi (broadcast S128x128 32#32) (maxsi (broadcast S128x128 4294967264#32)
        (subi (broadcastTo S128x128 (shapeCast S1x128 x1 h1) b1) (broadcastTo S128x128 (shapeCast S128x1 x0 h0) b0))))
      (broadcast S128x128 32#32) (ix2 p q)
    = Cert.RelPos.posWord (x0 (ix2 p 0)) (x1 (ix2 0 q)) := by
  rw [shapeCast_self, shapeCast_self]
  show IntOp.addi (IntOp.minsi 32#32 (IntOp.maxsi 4294967264#32
      (IntOp.subi (broadcastTo S128x128 x1 b1 (ix2 p q)) (broadcastTo S128x128 x0 b0 (ix2 p q))))) 32#32 = _
  rw [broadcastTo_apply x1 b1 (ix2 p q) (ix2 0 q) (by intro a; match a with | ⟨0, _⟩ => rfl | ⟨1, _⟩ => rfl),
    broadcastTo_apply x0 b0 (ix2 p q) (ix2 p 0) (by intro a; match a with | ⟨0, _⟩ => rfl | ⟨1, _⟩ => rfl)]
  rfl

/-- The flattened one-hot operand: at (128·p + q, n) the indicator of "the row of (p, q) is n", as a real. -/
theorem hot_apply (rows : IVec S128x128 32)
    (hc : S128x128.ShapeCasts S128x128x1) (hb : S128x128x1.Broadcasts S128x128x65)
    (hi : S128x128x65.Iotas .tc 32 [2]) (hw : 1 < 32) (hbits : FTy.bits .bf16 < FTy.bits .f32)
    (hf : S128x128x65.ShapeCasts S16384x65) (p q : Fin 128) (n : Fin 65) :
    shapeCast S16384x65
        (truncf .bf16 (sitofp .f32 (extui 32 (cmpi .eq (broadcastTo S128x128x65 (shapeCast S128x128x1 rows hc) hb)
          (iota .tc S128x128x65 32 [2] hi)) hw) : FVec Ideal S128x128x65 .f32) hbits) hf (ix2 (flatRow p q) n)
      = ((((IntOp.cmpi .eq (rows (ix2 p q)) (BitVec.ofNat 32 n.val)).setWidth 32).toInt : ℝ) : EReal) := by
  rw [shapeCast_apply _ hf (ix2 (flatRow p q) n) (ix3 p q n) (by
    rw [Shape.rowMajor_val_three, Shape.rowMajor_val_two]; rfl)]
  show ((((IntOp.cmpi .eq (broadcastTo S128x128x65 (shapeCast S128x128x1 rows hc) hb (ix3 p q n))
      (iota .tc S128x128x65 32 [2] hi (ix3 p q n))).setWidth 32).toInt : ℝ) : EReal) = _
  rw [broadcastTo_apply _ hb (ix3 p q n) (ix3 p q 0) (by
      intro a; match a with | ⟨0, _⟩ => rfl | ⟨1, _⟩ => rfl | ⟨2, _⟩ => rfl),
    shapeCast_apply rows hc (ix3 p q 0) (ix2 p q) (by
      rw [Shape.rowMajor_val_three, Shape.rowMajor_val_two]
      show p.val * 128 + q.val = (p.val * 128 + q.val) * 1 + 0
      omega),
    iota_single_apply]

/-- The body's product contracts the one-hot array's axis 1 with the transposed weights' axis 0 and batches nothing. -/
theorem dot_rowsCols : Cert.Lib.DotRowsCols.RowsCols dot_S16384x65_S65x128_S16384x128_1_0_0_1_n_n :=
  ⟨rfl, rfl, rfl, rfl, rfl, rfl⟩

/-- THE STORED ENTRY (0, p, q, e): the transposed weights' row `pos (x0 p) (x1 q)` at column e, plus the bias at e. -/
theorem pay_apply (x0 : Vec Ideal S128x1 .i32) (x1 : Vec Ideal S1x128 .i32) (x2 : Vec Ideal S65x128 .f32) (x3 : Vec Ideal S128 .f32)
    (p q e : Fin 128) :
    k0_pay1 (F := Ideal) x0 x1 x2 x3 (ix4 0 p q e)
      = x2 (ix2 (Cert.RelPos.pos (x0 (ix2 p 0)) (x1 (ix2 0 q))) e) + x3 (ix1 e) := by
  unfold k0_pay1
  -- the leading unit axis of the stored block
  rw [shapeCast_apply _ _ (ix4 0 p q e) (ix3 p q e) (by
    rw [Shape.rowMajor_val_three, Shape.rowMajor_val_four]
    show (p.val * 128 + q.val) * 128 + e.val = ((0 * 128 + p.val) * 128 + q.val) * 128 + e.val
    omega)]
  rw [addf_apply]
  refine congrArg₂ (· + ·) ?_ ?_
  · -- the product, read at row 128·p + q and column e
    rw [shapeCast_apply _ _ (ix3 p q e) (ix2 (flatRow p q) e) (by
      rw [Shape.rowMajor_val_three, Shape.rowMajor_val_two]; rfl)]
    rw [dot_rowsCols.matmul_zero_apply]
    refine (Finset.sum_congr rfl fun n _ => ?_).trans
      (Cert.RelPos.onehot_sum (x0 (ix2 p 0)) (x1 (ix2 0 q)) (fun n => x2 (ix2 n e)))
    refine congrArg₂ (· * ·) ?_ ?_
    · refine (hot_apply _ _ _ _ _ _ _ p q n).trans ?_
      rw [rows_apply]
    · show shapeCast S65x128 x2 _ (ix2 n e) = x2 (ix2 n e)
      rw [shapeCast_self]
  · -- the bias, broadcast along the last axis
    rw [broadcastTo_apply _ _ (ix3 p q e) (ix3 0 0 e) (by
        intro a; match a with | ⟨0, _⟩ => rfl | ⟨1, _⟩ => rfl | ⟨2, _⟩ => rfl),
      shapeCast_apply x3 _ (ix3 0 0 e) (ix1 e) (by
        rw [Shape.rowMajor_val_three, Shape.rowMajor_val_one]
        show e.val = (0 * 1 + 0) * 128 + e.val
        omega)]

end Cert.KernelIdeal.Entry

end
-- ==== Proof.KernelArray.lean ====
/-
  From the blocks the body stores to the whole result array.

  The result array (1 × 1024 × 1024 × 128) is tiled by 8 × 8 blocks of 1 × 128 × 128 × 128: grid point (gi, gj) writes
  the block of rows 128·gi … and columns 128·gj …. At that point the body reads rows 128·gi … of the index words laid out
  as a column, columns 128·gj … of the same words laid out as a row, the whole transposed weights and the whole bias.
  So local entry (0, p, q, e) of the block is global entry (0, 128·gi + p, 128·gj + q, e) of ONE function of the
  arguments, `RelPos.G`: the block's row word p is index word 128·gi + p, its column word q is index word 128·gj + q.
  Every index of the array lies in the block of the point (i₁ / 128, i₂ / 128), so the array ends holding `RelPos.G`.
-/
import proofs.«430985_j23416161698179_1_alg».proof.Proof.Gen.KernelIdeal.Value
import proofs.«430985_j23416161698179_1_alg».proof.Proof.KernelEntry
import Idealize.ShloMosaic.Lib.StableHlo.Run

noncomputable section

namespace Cert.KernelIdeal.Arr

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The arrays the region finds, read at an index -/

/-- The index words laid out as a column: entry (r, 0) is word r. -/
theorem V_col (c : Dev nD) (r : Fin 1024) :
    (V m c main_v1 : S1024x1.Idx → BitVec 32) (ix2 r 0) = (m ((c : Thread nD τ).loc main_arg0) : S1x1024.Idx → BitVec 32) (ix2 0 r) := by
  have e : (V m c main_v1 : S1024x1.Idx → BitVec 32)
      = shapeCast S1024x1 (shapeCast S1024 (m ((c : Thread nD τ).loc main_arg0) : S1x1024.Idx → BitVec 32) Facts₀.shapeCasts_S1x1024_S1024) Facts₀.shapeCasts_S1024_S1024x1 := by
    dsimp only [Gen.V, Gen.hostOps0]; after_results; rfl
  rw [e, shapeCast_apply _ _ (ix2 r 0) (ix1 r) (by
      rw [Shape.rowMajor_val_one, Shape.rowMajor_val_two]
      show r.val = r.val * 1 + 0
      omega),
    shapeCast_apply _ _ (ix1 r) (ix2 0 r) (by
      rw [Shape.rowMajor_val_two, Shape.rowMajor_val_one]
      show 0 * 1024 + r.val = r.val
      omega)]

/-- The index words laid out as a row: entry (0, r) is word r. -/
theorem V_row (c : Dev nD) (r : Fin 1024) :
    (V m c main_v2 : S1x1024.Idx → BitVec 32) (ix2 0 r) = (m ((c : Thread nD τ).loc main_arg0) : S1x1024.Idx → BitVec 32) (ix2 0 r) := by
  have e : (V m c main_v2 : S1x1024.Idx → BitVec 32)
      = shapeCast S1x1024 (shapeCast S1024 (m ((c : Thread nD τ).loc main_arg0) : S1x1024.Idx → BitVec 32) Facts₀.shapeCasts_S1x1024_S1024) Facts₀.shapeCasts_S1024_S1x1024 := by
    dsimp only [Gen.V, Gen.hostOps0]; after_results; rfl
  rw [e, shapeCast_apply _ _ (ix2 0 r) (ix1 r) (by
      rw [Shape.rowMajor_val_one, Shape.rowMajor_val_two]
      show r.val = 0 * 1024 + r.val
      omega),
    shapeCast_apply _ _ (ix1 r) (ix2 0 r) (by
      rw [Shape.rowMajor_val_two, Shape.rowMajor_val_one]
      show 0 * 1024 + r.val = r.val
      omega)]

/-- The transposed weights: entry (n, e) is the weights' entry (e, n). -/
theorem V_wt (c : Dev nD) (n : Fin 65) (e : Fin 128) :
    (V m c main_v3 : S65x128.Idx → EReal) (ix2 n e) = (m ((c : Thread nD τ).loc main_arg1) : S128x65.Idx → EReal) (ix2 e n) := by
  have h : (V m c main_v3 : S65x128.Idx → EReal)
      = transpose S65x128 [1, 0] (m ((c : Thread nD τ).loc main_arg1) : S128x65.Idx → EReal) Facts₀.transposes_S128x65_S65x128_1_0 := by
    dsimp only [Gen.V, Gen.hostOps0]; after_results
  rw [h]
  exact transpose_apply [1, 0] _ _ (ix2 n e) (ix2 e n) (by
    intro b; match b with | ⟨0, _⟩ => rfl | ⟨1, _⟩ => rfl)

/-! ## One entry of a block is one entry of the whole function -/

/-- If a block's row word p is the array's index word i₁, its column word q is index word i₂, its transposed-weights
    column e is the weights' row i₃, and its bias entry e is the bias at i₃, then the stored entry (0, p, q, e) is
    the whole function at (0, i₁, i₂, i₃). -/
theorem block_entry (idxs : IVec S1x1024 32) (W : FVec Ideal S128x65 .f32) (b : FVec Ideal S128 .f32)
    (x0 : Vec Ideal S128x1 .i32) (x1 : Vec Ideal S1x128 .i32) (x2 : Vec Ideal S65x128 .f32) (x3 : Vec Ideal S128 .f32)
    (p q e : Fin 128) (i1 i2 : Fin 1024) (i3 : Fin 128)
    (h0 : x0 (ix2 p 0) = idxs (ix2 0 i1))
    (h1 : x1 (ix2 0 q) = idxs (ix2 0 i2))
    (h2 : ∀ n : Fin 65, x2 (ix2 n e) = W (ix2 i3 n))
    (h3 : x3 (ix1 e) = b (ix1 i3)) :
    k0_pay1 (F := Ideal) x0 x1 x2 x3 (ix4 0 p q e) = Cert.RelPos.G idxs W b (ix4 0 i1 i2 i3) := by
  rw [Entry.pay_apply, h0, h1, h2, h3]
  rfl

/-! ## What each point writes back -/

theorem hz4 : (![0, 0, 0, 0] : Fin 4 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The result as one function of the argument arrays as launched. -/
abbrev result (c : Dev nD) : S1x1024x1024x128.Idx → EReal :=
  Cert.RelPos.G (m ((c : Thread nD τ).loc main_arg0)) (m ((c : Thread nD τ).loc main_arg1)) (m ((c : Thread nD τ).loc main_arg2))

/-- The printed index maps, decided over the 64 points: the column window moves with the result's axis 1, the row
    window with its axis 2, the weights and the bias stay, and the result's block indices are (0, gi, gj, 0) with
    gi, gj below 8. -/
theorem idx_facts : ∀ t : Fin cfg0.N,
    win0_0.index t (0 : Fin 2) = win0_4.index t (1 : Fin 4) ∧ win0_0.index t (1 : Fin 2) = 0
    ∧ win0_1.index t (0 : Fin 2) = 0 ∧ win0_1.index t (1 : Fin 2) = win0_4.index t (2 : Fin 4)
    ∧ win0_2.index t (0 : Fin 2) = 0 ∧ win0_2.index t (1 : Fin 2) = 0
    ∧ win0_3.index t (0 : Fin 1) = 0
    ∧ win0_4.index t (0 : Fin 4) = 0 ∧ win0_4.index t (3 : Fin 4) = 0
    ∧ win0_4.index t (1 : Fin 4) ≤ 7 ∧ win0_4.index t (2 : Fin 4) ≤ 7 :=
  (by decide +kernel : ∀ t : Fin grid0.N, _)

/-- Every block (0, g₁, g₂, 0) of the result is some point's. -/
theorem idx_onto : ∀ (g1 g2 : Fin 8), ∃ t : Fin cfg0.N, win0_4.index t = ![0, g1.val, g2.val, 0] :=
  (by decide +kernel : ∀ (g1 g2 : Fin 8), ∃ t : Fin grid0.N, win0_4.index t = ![0, g1.val, g2.val, 0])

/-- WHAT POINT t WRITES BACK is block t of the whole function. -/
theorem flushed_eq (c : Dev nD) (t : Fin cfg0.N) :
    (dats m 0 c).flushed 4 t = ((cfg0.win 4).blk t).view.read (Elt Ideal) (result m c) := by
  rw [flushed4]
  unfold out0_4
  rw [View.canon_unit_zero hz4]
  simp only [View.ld_unit_zero (S := S128x1) hz2, View.ld_unit_zero (S := S1x128) hz2,
    View.ld_unit_zero (S := S65x128) hz2, View.ld_unit_zero (S := S128) hz1]
  obtain ⟨e00, e01, e10, e11, e20, e21, e30, e40, e43, b1, b2⟩ := idx_facts t
  funext j
  show k0_pay1 (F := Ideal) (iblk m c 0 t) (iblk m c 1 t) (iblk m c 2 t) (iblk m c 3 t) j
    = result m c (((cfg0.win 4).blk t).view.emb j)
  obtain ⟨p, q, e, rfl⟩ : ∃ (p q e : Fin 128), (j : S1x128x128x128.Idx) = ix4 0 p q e :=
    ⟨j 1, j 2, j 3, by
      funext a
      match a with
      | ⟨0, _⟩ => exact Fin.ext (by have h : (j 0).val < 1 := (j 0).isLt; show (j 0).val = 0; omega)
      | ⟨1, _⟩ => rfl
      | ⟨2, _⟩ => rfl
      | ⟨3, _⟩ => rfl⟩
  have hp := p.isLt
  have hq := q.isLt
  -- the global coordinates of local entry (0, p, q, e)
  refine (block_entry (m ((c : Thread nD τ).loc main_arg0)) (m ((c : Thread nD τ).loc main_arg1)) (m ((c : Thread nD τ).loc main_arg2))
    (iblk m c 0 t) (iblk m c 1 t) (iblk m c 2 t) (iblk m c 3 t) p q e
    ⟨win0_4.index t (1 : Fin 4) * 128 + p.val, by omega⟩ ⟨win0_4.index t (2 : Fin 4) * 128 + q.val, by omega⟩ e ?_ ?_ ?_ ?_).trans ?_
  · -- the column block's word p is index word 128·gi + p
    show (V m c main_v1 : S1024x1.Idx → BitVec 32) (((cfg0.win 0).blk t).view.emb (ix2 p 0)) = _
    have hemb : ((cfg0.win 0).blk t).view.emb (ix2 p 0)
        = (ix2 (⟨win0_4.index t (1 : Fin 4) * 128 + p.val, by omega⟩ : Fin 1024) 0 : S1024x1.Idx) := by
      funext a; apply Fin.ext
      match a with
      | ⟨0, _⟩ => show win0_0.index t (0 : Fin 2) * 128 + 1 * p.val = win0_4.index t (1 : Fin 4) * 128 + p.val; omega
      | ⟨1, _⟩ => show win0_0.index t (1 : Fin 2) * 1 + 1 * 0 = 0; omega
    rw [hemb, V_col]
  · -- the row block's word q is index word 128·gj + q
    show (V m c main_v2 : S1x1024.Idx → BitVec 32) (((cfg0.win 1).blk t).view.emb (ix2 0 q)) = _
    have hemb : ((cfg0.win 1).blk t).view.emb (ix2 0 q)
        = (ix2 0 (⟨win0_4.index t (2 : Fin 4) * 128 + q.val, by omega⟩ : Fin 1024) : S1x1024.Idx) := by
      funext a; apply Fin.ext
      match a with
      | ⟨0, _⟩ => show win0_1.index t (0 : Fin 2) * 1 + 1 * 0 = 0; omega
      | ⟨1, _⟩ => show win0_1.index t (1 : Fin 2) * 128 + 1 * q.val = win0_4.index t (2 : Fin 4) * 128 + q.val; omega
    rw [hemb, V_row]
  · -- the weights' block is the whole transposed array
    intro n
    show (V m c main_v3 : S65x128.Idx → EReal) (((cfg0.win 2).blk t).view.emb (ix2 n e)) = _
    have hemb : ((cfg0.win 2).blk t).view.emb (ix2 n e) = (ix2 n e : S65x128.Idx) := by
      funext a; apply Fin.ext
      match a with
      | ⟨0, _⟩ => show win0_2.index t (0 : Fin 2) * 65 + 1 * n.val = n.val; omega
      | ⟨1, _⟩ => show win0_2.index t (1 : Fin 2) * 128 + 1 * e.val = e.val; omega
    rw [hemb, V_wt]
  · -- the bias block is the whole bias
    show (V m c main_arg2 : S128.Idx → EReal) (((cfg0.win 3).blk t).view.emb (ix1 e)) = _
    have hemb : ((cfg0.win 3).blk t).view.emb (ix1 e) = (ix1 e : S128.Idx) := by
      funext a; apply Fin.ext
      match a with
      | ⟨0, _⟩ => show win0_3.index t (0 : Fin 1) * 128 + 1 * e.val = e.val; omega
    rw [hemb, V_main_arg2]
  · -- and those are the coordinates of the block's entry in the array
    refine congrArg (result m c) ?_
    funext a; apply Fin.ext
    match a with
    | ⟨0, _⟩ => show 0 = win0_4.index t (0 : Fin 4) * 1 + 1 * 0; omega
    | ⟨1, _⟩ => show win0_4.index t (1 : Fin 4) * 128 + p.val = win0_4.index t (1 : Fin 4) * 128 + 1 * p.val; omega
    | ⟨2, _⟩ => show win0_4.index t (2 : Fin 4) * 128 + q.val = win0_4.index t (2 : Fin 4) * 128 + 1 * q.val; omega
    | ⟨3, _⟩ => show e.val = win0_4.index t (3 : Fin 4) * 128 + 1 * e.val; omega

/-! ## The blocks tile the array -/

/-- An index of the array is in point t's block iff each coordinate is in the block's range on its axis. -/
theorem mem_blk (t : Fin cfg0.N) (i : S1x1024x1024x128.Idx) :
    i ∈ ((cfg0.win 4).blk t).view.set ↔ ∀ a : Fin 4, win0_4.index t a * S1x128x128x128.size a ≤ (i a).val
      ∧ (i a).val < win0_4.index t a * S1x128x128x128.size a + S1x128x128x128.size a := by
  show i ∈ ((View.whole main_v4).slice (win0_4.rect t)).set ↔ _
  rw [View.set_slice_whole, Rect.mem_set_unit]
  exact Iff.rfl

/-- Every index (0, i₁, i₂, i₃) lies in the block of the point with block indices (0, i₁ / 128, i₂ / 128, 0). -/
theorem cover (i : S1x1024x1024x128.Idx) :
    ∃ t : Fin cfg0.N, (cfg0.win 4).flush t = true ∧ i ∈ ((cfg0.win 4).blk t).view.set := by
  have h0 : (i 0).val < 1 := (i 0).isLt
  have h1 : (i 1).val < 1024 := (i 1).isLt
  have h2 : (i 2).val < 1024 := (i 2).isLt
  have h3 : (i 3).val < 128 := (i 3).isLt
  obtain ⟨t, ht⟩ := idx_onto ⟨(i 1).val / 128, by omega⟩ ⟨(i 2).val / 128, by omega⟩
  have q0 : win0_4.index t (0 : Fin 4) = 0 := congrFun ht 0
  have q1 : win0_4.index t (1 : Fin 4) = (i 1).val / 128 := congrFun ht 1
  have q2 : win0_4.index t (2 : Fin 4) = (i 2).val / 128 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 128 ≤ (i 1).val ∧ (i 1).val < win0_4.index t (1 : Fin 4) * 128 + 128; omega
  | ⟨2, _⟩ => show win0_4.index t (2 : Fin 4) * 128 ≤ (i 2).val ∧ (i 2).val < win0_4.index t (2 : Fin 4) * 128 + 128; omega
  | ⟨3, _⟩ => show win0_4.index t (3 : Fin 4) * 128 ≤ (i 3).val ∧ (i 3).val < win0_4.index t (3 : Fin 4) * 128 + 128; omega

/-- THE ARRAY after the run is the whole function of the arguments. -/
theorem final (c : Dev nD) : (dats m 0 c).arrAt 4 cfg0.N = result m c :=
  (dats m 0 c).arrAt_eq_of_cover 4 (result m c) (fun t _ => flushed_eq m c t) cover

/-! ## The run, read -/

/-- Every weakly fair execution of the idealized kernel terminates with the result array at the whole function of the
    arguments and the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Arr

end
-- ==== Proof.RefRun.lean ====
/-
  The reference program's @main as ONE straight line of host operations, and its run.

  @main calls three module-local functions (the clip of the gaps, the row lookup, and inside the lookup the choice
  between a row and the row counted from the end). A call executes the callee's body on the operands, each value of the body
  in a buffer of its own, so @main is the line of its own operations with each callee's operations written at the
  call site over that call's buffers: forty-three operations in all. From any memory with zero counters every
  weakly fair execution of that line terminates, and every buffer ends at the fold of the operations' results over the
  launch contents.
-/
import proofs.«430985_j23416161698179_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded. Seven of @main's own (the two spreads of the index row along
    the two position axes, their difference, the two clip bounds); the clip's six into the first call's buffers
    (each bound converted to its own type and spread, the larger with the lower bound, the smaller with the upper);
    four more of @main's own (the shift 32, its spread, the sum, the transposed weights); the lookup's twenty-three
    into the second call's buffers (the sign test and the row counted from the end, the inner call's one choice
    between them, the trailing unit axis, the two range tests and their conjunction folded over the unit axis, the
    gather, the mask spread over the columns, the fill constant spread, the masked choice); and @main's last three
    (the bias spread along the three leading axes, the sum). -/
abbrev ops : List (HloOp τ sig (Elt F)) :=
  [ unary main_arg0 main_v0 (broadcastInDim S1x1x1024 ![0, 2] bcast_S1x1024_S1x1x1024_0_2 : (⟨S1x1024, .i32⟩ : BufTy).Contents (Elt F) → (⟨S1x1x1024, .i32⟩ : BufTy).Contents (Elt F)),
    unary main_arg0 main_v1 (broadcastInDim S1x1024x1 ![0, 1] bcast_S1x1024_S1x1024x1_0_1 : (⟨S1x1024, .i32⟩ : BufTy).Contents (Elt F) → (⟨S1x1024x1, .i32⟩ : BufTy).Contents (Elt F)),
    unary main_v0 main_v2 (broadcastInDim S1x1024x1024 ![0, 1, 2] bcast_S1x1x1024_S1x1024x1024_0_1_2 : (⟨S1x1x1024, .i32⟩ : BufTy).Contents (Elt F) → (⟨S1x1024x1024, .i32⟩ : BufTy).Contents (Elt F)),
    unary main_v1 main_v3 (broadcastInDim S1x1024x1024 ![0, 1, 2] bcast_S1x1024x1_S1x1024x1024_0_1_2 : (⟨S1x1024x1, .i32⟩ : BufTy).Contents (Elt F) → (⟨S1x1024x1024, .i32⟩ : BufTy).Contents (Elt F)),
    binary main_v2 main_v3 main_v4 (subi : (⟨S1x1024x1024, .i32⟩ : BufTy).Contents (Elt F) → (⟨S1x1024x1024, .i32⟩ : BufTy).Contents (Elt F) → (⟨S1x1024x1024, .i32⟩ : BufTy).Contents (Elt F)),
    nullary main_c (constantI S_ 32 4294967264#32),
    nullary main_c_0 (constantI S_ 32 32#32),
    TRef.unary (.of main_c) main_call0.v0 id,
    TRef.unary main_call0.v0 main_call0.v1 (broadcastInDim S1x1024x1024 ![] bcast_S_S1x1024x1024),
    TRef.binary main_call0.v1 (.of main_v4) main_call0.v2 maxsi,
    TRef.unary (.of main_c_0) main_call0.v3 id,
    TRef.unary main_call0.v3 main_call0.v4 (broadcastInDim S1x1024x1024 ![] bcast_S_S1x1024x1024),
    TRef.binary main_call0.v4 main_call0.v2 main_call0.v5 minsi,
    nullary main_c_1 (constantI S_ 32 32#32),
    unary main_c_1 main_v6 (broadcastInDim S1x1024x1024 ![] bcast_S_S1x1024x1024 : (⟨S_, .i32⟩ : BufTy).Contents (Elt F) → (⟨S1x1024x1024, .i32⟩ : BufTy).Contents (Elt F)),
    binary main_v5 main_v6 main_v7 (addi : (⟨S1x1024x1024, .i32⟩ : BufTy).Contents (Elt F) → (⟨S1x1024x1024, .i32⟩ : BufTy).Contents (Elt F) → (⟨S1x1024x1024, .i32⟩ : BufTy).Contents (Elt F)),
    unary main_arg1 main_v8 ((transpose S65x128 [1, 0] · transposes_S128x65_S65x128_1_0) : (⟨S128x65, .f32⟩ : BufTy).Contents (Elt F) → (⟨S65x128, .f32⟩ : BufTy).Contents (Elt F)),
    TRef.nullary main_call1.c (constantI S_ 32 0#32),
    TRef.unary main_call1.c main_call1.v0 (broadcastInDim S1x1024x1024 ![] bcast_S_S1x1024x1024),
    TRef.binary (.of main_v7) main_call1.v0 main_call1.v1 (cmpi .slt),
    TRef.nullary main_call1.c_0 (constantI S_ 32 65#32),
    TRef.unary main_call1.c_0 main_call1.v2 (broadcastInDim S1x1024x1024 ![] bcast_S_S1x1024x1024),
    TRef.binary (.of main_v7) main_call1.v2 main_call1.v3 addi,
    TRef.ternary main_call1.v1 main_call1.v3 (.of main_v7) main_call1.call0.v0 select,
    TRef.unary main_call1.call0.v0 main_call1.v5 (broadcastInDim S1x1024x1024x1 ![0, 1, 2] bcast_S1x1024x1024_S1x1024x1024x1_0_1_2),
    TRef.nullary main_call1.c_1 (constantI S1 32 64#32),
    TRef.nullary main_call1.c_2 (constantI S_ 32 0#32),
    TRef.unary main_call1.c_2 main_call1.v6 (broadcastInDim S1x1024x1024x1 ![] bcast_S_S1x1024x1024x1),
    TRef.binary main_call1.v5 main_call1.v6 main_call1.v7 (cmpi .sge),
    TRef.unary main_call1.c_1 main_call1.v8 (broadcastInDim S1x1x1x1 ![3] bcast_S1_S1x1x1x1_3),
    TRef.unary main_call1.v8 main_call1.v9 (broadcastInDim S1x1024x1024x1 ![0, 1, 2, 3] bcast_S1x1x1x1_S1x1024x1024x1_0_1_2_3),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S1x1024x1024x1_S1x1024x1024_d3 h_S_),
    TRef.binary (.of main_v8) main_call1.v5 main_call1.v13 (fun x i => Host.gather gather_S65x128_S1x1024x1024x1_S1x1024x1024x128_3_0_n_n_0_3_1128 x i),
    TRef.unary main_call1.v12 main_call1.v14 (broadcastInDim S1x1024x1024x128 ![0, 1, 2] bcast_S1x1024x1024_S1x1024x1024x128_0_1_2),
    TRef.nullary main_call1.cst (constant S_ .f32 0x7FC00000#32),
    TRef.unary main_call1.cst main_call1.v15 (broadcastInDim S1x1024x1024x128 ![] bcast_S_S1x1024x1024x128),
    TRef.ternary main_call1.v14 main_call1.v13 main_call1.v15 main_call1.v16 select,
    unary main_arg2 main_v10 (broadcastInDim S1x1x1x128 ![3] bcast_S128_S1x1x1x128_3 : (⟨S128, .f32⟩ : BufTy).Contents (Elt F) → (⟨S1x1x1x128, .f32⟩ : BufTy).Contents (Elt F)),
    unary main_v10 main_v11 (broadcastInDim S1x1024x1024x128 ![0, 1, 2, 3] bcast_S1x1x1x128_S1x1024x1024x128_0_1_2_3 : (⟨S1x1x1x128, .f32⟩ : BufTy).Contents (Elt F) → (⟨S1x1024x1024x128, .f32⟩ : BufTy).Contents (Elt F)),
    binary main_v9 main_v11 main_v12 (addf : (⟨S1x1024x1024x128, .f32⟩ : BufTy).Contents (Elt F) → (⟨S1x1024x1024x128, .f32⟩ : BufTy).Contents (Elt F) → (⟨S1x1024x1024x128, .f32⟩ : BufTy).Contents (Elt F)) ]

-- forty-three binds re-associated: the rewrite under the chain recurses once per statement
set_option maxRecDepth 1024 in
/-- @main is that straight line: the three functions' definitions unfolded at their calls and the records at their
    fields, both sides are one chain of host steps once sequencing is reassociated. -/
theorem main_eq (c : Dev nD) : main (F := F) c = seq ops := by
  simp only [main, fn_clip.body, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation of the line touches buffers of the core only. -/
theorem ops_sub : (ops : List (HloOp τ sig (Elt F))).Forall fun op => op.bufs ⊆ tcRefs τ sig :=
  ⟨unary_bufs_sub .., unary_bufs_sub .., unary_bufs_sub .., unary_bufs_sub .., binary_bufs_sub .., nullary_bufs_sub ..,
    nullary_bufs_sub ..,
    unary_bufs_sub .., unary_bufs_sub .., binary_bufs_sub .., unary_bufs_sub .., unary_bufs_sub .., binary_bufs_sub ..,
    nullary_bufs_sub .., unary_bufs_sub .., binary_bufs_sub .., unary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    unary_bufs_sub .., unary_bufs_sub .., binary_bufs_sub ..⟩

/-- At the compiled mesh, for any float values, from any memory with zero counters: every weakly fair execution of
    @main on the cores terminates, and every final state has each buffer at the operations' fold over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefOut.lean ====
/-
  What the reference computes, as ONE pure function of the three arguments, and that it is the table of
  relative-position embeddings.

  The integer part. The reference spreads the row of index words along the two position axes, takes the difference
  (word at j minus word at i), clips it to [−32, 32] read signed and shifts it by 32: at (i, j) that is the row word of
  the pair. The lookup then replaces a negative row word by the word plus 65 (none is negative, so nothing changes),
  appends a unit axis, and computes a mask: "at least 0 and at most 64", folded by conjunction over the unit axis from
  "true". Every row word lies in [0, 64], so the mask is 1 everywhere.

  The float part. The lookup gathers, for (i, j, e), the transposed weights at the row the start index names (read
  signed and clamped into [0, 64]: the clamp leaves a row in [0, 64] alone) and at column e, that is W (e, row); where
  the mask is 1 the gathered value is kept, so the fill constant is never read. The bias, spread along the three leading
  axes, is added.
-/
import proofs.«430985_j23416161698179_1_alg».proof.Proof.Gen.ReferenceIdeal
import proofs.«430985_j23416161698179_1_alg».proof.Proof.RelPos
import Idealize.ShloMosaic.Lib.ValueIdx
import Idealize.ShloMosaic.Lib.Pipeline.Value
import Idealize.ShloMosaic.Lib.ValueLayout
import Idealize.ShloMosaic.Lib.Affine
import Idealize.ShloMosaic.PureOps.Reduce

noncomputable section

namespace Cert.ReferenceIdeal.RefOut

open Cert.ReferenceIdeal Cert.ReferenceIdeal.Gen Cert.RelPos Idealize.ShloMosaic Idealize.ShloMosaic.ValueIdx

/-! ## The row words -/

/-- The table row of every pair of positions, as the reference computes it: the index row spread along the second
    position axis minus the index row spread along the first, the larger of that and −32, the smaller of that and 32,
    plus 32. -/
def rowWords (idxs : IVec S1x1024 32) : IVec S1x1024x1024 32 :=
  addi
    (minsi (broadcastInDim S1x1024x1024 ![] bcast_S_S1x1024x1024 (constantI S_ 32 32#32))
      (maxsi (broadcastInDim S1x1024x1024 ![] bcast_S_S1x1024x1024 (constantI S_ 32 4294967264#32))
        (subi
          (broadcastInDim S1x1024x1024 ![0, 1, 2] bcast_S1x1x1024_S1x1024x1024_0_1_2
            (broadcastInDim S1x1x1024 ![0, 2] bcast_S1x1024_S1x1x1024_0_2 idxs))
          (broadcastInDim S1x1024x1024 ![0, 1, 2] bcast_S1x1024x1_S1x1024x1024_0_1_2
            (broadcastInDim S1x1024x1 ![0, 1] bcast_S1x1024_S1x1024x1_0_1 idxs)))))
    (broadcastInDim S1x1024x1024 ![] bcast_S_S1x1024x1024 (constantI S_ 32 32#32))

/-- The index row spread along the first position axis reads, at (i, j), the word at j. -/
theorem spreadJ_apply (idxs : IVec S1x1024 32) (a : Fin 1) (i j : Fin 1024) :
    broadcastInDim S1x1024x1024 ![0, 1, 2] bcast_S1x1x1024_S1x1024x1024_0_1_2
        (broadcastInDim S1x1x1024 ![0, 2] bcast_S1x1024_S1x1x1024_0_2 idxs) (ix3 a i j) = idxs (ix2 0 j) := by
  refine (broadcastInDim_apply _ _ _ (ix3 a i j) (ix3 0 0 j) ?_).trans ?_
  · intro b; match b with
    | ⟨0, _⟩ => rfl
    | ⟨1, _⟩ => rfl
    | ⟨2, _⟩ => rfl
  · refine broadcastInDim_apply _ _ _ (ix3 0 0 j) (ix2 0 j) ?_
    intro b; match b with
    | ⟨0, _⟩ => rfl
    | ⟨1, _⟩ => rfl

/-- The index row spread along the second position axis reads, at (i, j), the word at i. -/
theorem spreadI_apply (idxs : IVec S1x1024 32) (a : Fin 1) (i j : Fin 1024) :
    broadcastInDim S1x1024x1024 ![0, 1, 2] bcast_S1x1024x1_S1x1024x1024_0_1_2
        (broadcastInDim S1x1024x1 ![0, 1] bcast_S1x1024_S1x1024x1_0_1 idxs) (ix3 a i j) = idxs (ix2 0 i) := by
  refine (broadcastInDim_apply _ _ _ (ix3 a i j) (ix3 0 i 0) ?_).trans ?_
  · intro b; match b with
    | ⟨0, _⟩ => rfl
    | ⟨1, _⟩ => rfl
    | ⟨2, _⟩ => rfl
  · refine broadcastInDim_apply _ _ _ (ix3 0 i 0) (ix2 0 i) ?_
    intro b; match b with
    | ⟨0, _⟩ => rfl
    | ⟨1, _⟩ => rfl

/-- At (i, j) the row word is the clipped gap of the words at i and j, shifted by 32. -/
theorem rowWords_apply (idxs : IVec S1x1024 32) (a : Fin 1) (i j : Fin 1024) :
    rowWords idxs (ix3 a i j) = posWord (idxs (ix2 0 i)) (idxs (ix2 0 j)) := by
  show IntOp.addi (IntOp.minsi 32#32 (IntOp.maxsi 4294967264#32 (IntOp.subi _ _))) 32#32 = _
  rw [spreadJ_apply, spreadI_apply]
  rfl

/-- Every row word, read signed, lies in [0, 64]. -/
theorem rowWords_range (idxs : IVec S1x1024 32) (k : S1x1024x1024.Idx) :
    0 ≤ (rowWords idxs k).toInt ∧ (rowWords idxs k).toInt ≤ 64 := by
  obtain ⟨a, i, j, rfl⟩ : ∃ (a : Fin 1) (i j : Fin 1024), k = ix3 a i j := ⟨k 0, k 1, k 2, eq_ix3 k⟩
  rw [rowWords_apply]
  exact posWord_range _ _

/-! ## The start indices of the lookup, and its range mask -/

/-- The lookup's start indices from a table of row words: a negative word counted from the end (plus 65), the others
    kept; then a trailing unit axis. -/
def startIdx (r : IVec S1x1024x1024 32) : IVec S1x1024x1024x1 32 :=
  broadcastInDim S1x1024x1024x1 ![0, 1, 2] bcast_S1x1024x1024_S1x1024x1024x1_0_1_2
    (select (cmpi .slt r (broadcastInDim S1x1024x1024 ![] bcast_S_S1x1024x1024 (constantI S_ 32 0#32)))
      (addi r (broadcastInDim S1x1024x1024 ![] bcast_S_S1x1024x1024 (constantI S_ 32 65#32)))
      r)

/-- Where the word at (i, j) is not negative the start index at (i, j, 0) is that word. -/
theorem startIdx_apply (r : IVec S1x1024x1024 32) (a : Fin 1) (i j : Fin 1024) (u : Fin 1)
    (h : 0 ≤ (r (ix3 0 i j)).toInt) : startIdx r (ix4 a i j u) = r (ix3 0 i j) := by
  unfold startIdx
  refine (broadcastInDim_apply _ _ _ (ix4 a i j u) (ix3 0 i j) ?_).trans ?_
  · intro b; match b with
    | ⟨0, _⟩ => rfl
    | ⟨1, _⟩ => rfl
    | ⟨2, _⟩ => rfl
  · show Scalar.select (IntOp.cmpi .slt (r (ix3 0 i j)) 0#32) _ _ = _
    have hc : IntOp.cmpi .slt (r (ix3 0 i j)) 0#32 = 0#1 :=
      eq_zero_of_ne_one fun h1 => by
        have := IntOp.cmpi_slt.mp h1
        have h0 : (0#32 : BitVec 32).toInt = 0 := by decide
        omega
    rw [hc, select_zero]

/-- The range mask of a table of start indices: at (i, j) the conjunction, folded from "true" over the trailing unit
    axis, of "the start index is at least 0" and "the start index is at most 64". -/
def inRange (s : IVec S1x1024x1024x1 32) : IVec S1x1024x1024 1 :=
  Host.reduce IntOp.andi
    (andi (cmpi .sge s (broadcastInDim S1x1024x1024x1 ![] bcast_S_S1x1024x1024x1 (constantI S_ 32 0#32)))
      (cmpi .sle s
        (broadcastInDim S1x1024x1024x1 ![0, 1, 2, 3] bcast_S1x1x1x1_S1x1024x1024x1_0_1_2_3
          (broadcastInDim S1x1x1x1 ![3] bcast_S1_S1x1x1x1_3 (constantI S1 32 64#32)))))
    (constantI S_ 1 1#1) reducesTo_S1x1024x1024x1_S1x1024x1024_d3 h_S_

/-- A left fold by "and" from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | n :: l => by
    rw [List.foldl_cons, hf n, show IntOp.andi 1#1 1#1 = 1#1 by decide]
    exact foldl_andi_ones f hf l

/-- Where every start index lies in [0, 64] the range mask is 1 everywhere. -/
theorem inRange_eq_one (s : IVec S1x1024x1024x1 32) (hs : ∀ k, 0 ≤ (s k).toInt ∧ (s k).toInt ≤ 64)
    (j : S1x1024x1024.Idx) : inRange s j = 1#1 := by
  unfold inRange
  rw [Host.reduce_eq_foldl]
  refine foldl_andi_ones _ (fun k => ?_) _
  show IntOp.andi (IntOp.cmpi .sge (s k) 0#32) (IntOp.cmpi .sle (s k) 64#32) = 1#1
  have h0 : (0#32 : BitVec 32).toInt = 0 := by decide
  have h64 : (64#32 : BitVec 32).toInt = 64 := by decide
  exact IntOp.andi_eq_one.mpr ⟨IntOp.cmpi_sge.mpr (by rw [h0]; exact (hs k).1), IntOp.cmpi_sle.mpr (by rw [h64]; exact (hs k).2)⟩

/-- Every start index made from the row words is the row word at its pair of positions, so lies in [0, 64]. -/
theorem startIdx_rowWords_apply (idxs : IVec S1x1024 32) (a : Fin 1) (i j : Fin 1024) (u : Fin 1) :
    startIdx (rowWords idxs) (ix4 a i j u) = posWord (idxs (ix2 0 i)) (idxs (ix2 0 j)) := by
  rw [startIdx_apply _ _ _ _ _ (rowWords_range idxs _).1, rowWords_apply]

theorem startIdx_rowWords_range (idxs : IVec S1x1024 32) (k : S1x1024x1024x1.Idx) :
    0 ≤ (startIdx (rowWords idxs) k).toInt ∧ (startIdx (rowWords idxs) k).toInt ≤ 64 := by
  obtain ⟨a, i, j, u, rfl⟩ : ∃ (a : Fin 1) (i j : Fin 1024) (u : Fin 1), k = ix4 a i j u := ⟨k 0, k 1, k 2, k 3, eq_ix4 k⟩
  rw [startIdx_rowWords_apply]
  exact posWord_range _ _

/-! ## The lookup -/

section Gather
variable {α : Type}

/-- The gather read at (i, j, e): the table at the row the start index at (i, j, 0) names, read signed and clamped into
    [0, 64], and at column e. -/
theorem gather_apply (T : S65x128.Idx → α) (s : IVec S1x1024x1024x1 32) (a : Fin 1) (i j : Fin 1024) (e : Fin 128) :
    Host.gather gather_S65x128_S1x1024x1024x1_S1x1024x1024x128_3_0_n_n_0_3_1128 T s (ix4 a i j e)
      = T (ix2 ⟨min (s (ix4 a i j 0)).toInt.toNat 64, by omega⟩ e) := by
  unfold Host.gather
  refine congrArg T ?_
  funext b
  refine Fin.ext ?_
  match b with
  | ⟨0, _⟩ =>
    show gather_S65x128_S1x1024x1024x1_S1x1024x1024x128_3_0_n_n_0_3_1128.start (ix4 a i j e) s 0
        + gather_S65x128_S1x1024x1024x1_S1x1024x1024x128_3_0_n_n_0_3_1128.batchCoord (ix4 a i j e) 0
        + gather_S65x128_S1x1024x1024x1_S1x1024x1024x128_3_0_n_n_0_3_1128.offCoord (ix4 a i j e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S65x128_S1x1024x1024x1_S1x1024x1024x128_3_0_n_n_0_3_1128.startIndexMap from
      List.mem_singleton.mpr rfl)]
    have hsi : gather_S65x128_S1x1024x1024x1_S1x1024x1024x128_3_0_n_n_0_3_1128.siIdx (ix4 a i j e)
        ⟨List.idxOf (0 : Fin 2) gather_S65x128_S1x1024x1024x1_S1x1024x1024x128_3_0_n_n_0_3_1128.startIndexMap,
          List.idxOf_lt_length_iff.2 (List.mem_singleton.mpr rfl)⟩ = ix4 a i j 0 := by
      funext c; refine Fin.ext ?_
      match c with
      | ⟨0, _⟩ => rfl
      | ⟨1, _⟩ => rfl
      | ⟨2, _⟩ => rfl
      | ⟨3, _⟩ => rfl
    rw [hsi]
    rfl
  | ⟨1, _⟩ =>
    show gather_S65x128_S1x1024x1024x1_S1x1024x1024x128_3_0_n_n_0_3_1128.start (ix4 a i j e) s 1
        + gather_S65x128_S1x1024x1024x1_S1x1024x1024x128_3_0_n_n_0_3_1128.batchCoord (ix4 a i j e) 1
        + gather_S65x128_S1x1024x1024x1_S1x1024x1024x128_3_0_n_n_0_3_1128.offCoord (ix4 a i j e) 1 = e.val
    rw [GatherDims.batchCoord_eq_zero _ _ _ List.not_mem_nil]
    unfold GatherDims.start
    rw [dif_neg (show (1 : Fin 2) ∉ gather_S65x128_S1x1024x1024x1_S1x1024x1024x128_3_0_n_n_0_3_1128.startIndexMap by decide)]
    unfold GatherDims.offCoord
    rw [dif_pos (show (1 : Fin 2) ∈ gather_S65x128_S1x1024x1024x1_S1x1024x1024x128_3_0_n_n_0_3_1128.sKept by decide)]
    simp only [Nat.zero_add]
    rfl

end Gather

/-! ## The result -/

/-- What the reference computes from the three arguments' contents: the rows the row words name, gathered from the
    transposed weights and kept where the range mask is 1 (the fill constant elsewhere), plus the bias spread along the
    three leading axes. -/
def refOut (idxs : IVec S1x1024 32) (W : FVec Ideal S128x65 .f32) (bias : FVec Ideal S128 .f32) :
    FVec Ideal S1x1024x1024x128 .f32 :=
  addf
    (select
      (broadcastInDim S1x1024x1024x128 ![0, 1, 2] bcast_S1x1024x1024_S1x1024x1024x128_0_1_2 (inRange (startIdx (rowWords idxs))))
      (Host.gather gather_S65x128_S1x1024x1024x1_S1x1024x1024x128_3_0_n_n_0_3_1128
        (transpose S65x128 [1, 0] W transposes_S128x65_S65x128_1_0) (startIdx (rowWords idxs)))
      (broadcastInDim S1x1024x1024x128 ![] bcast_S_S1x1024x1024x128 (constant S_ .f32 0x7FC00000#32)))
    (broadcastInDim S1x1024x1024x128 ![0, 1, 2, 3] bcast_S1x1x1x128_S1x1024x1024x128_0_1_2_3
      (broadcastInDim S1x1x1x128 ![3] bcast_S128_S1x1x1x128_3 bias))

/-- The bias spread along the three leading axes reads, at (i, j, e), the bias at e. -/
theorem spreadBias_apply (bias : FVec Ideal S128 .f32) (a : Fin 1) (i j : Fin 1024) (e : Fin 128) :
    broadcastInDim S1x1024x1024x128 ![0, 1, 2, 3] bcast_S1x1x1x128_S1x1024x1024x128_0_1_2_3
        (broadcastInDim S1x1x1x128 ![3] bcast_S128_S1x1x1x128_3 bias) (ix4 a i j e) = bias (ix1 e) := by
  refine (broadcastInDim_apply _ _ _ (ix4 a i j e) (ix4 0 0 0 e) ?_).trans ?_
  · intro b; match b with
    | ⟨0, _⟩ => rfl
    | ⟨1, _⟩ => rfl
    | ⟨2, _⟩ => rfl
    | ⟨3, _⟩ => rfl
  · refine broadcastInDim_apply _ _ _ (ix4 0 0 0 e) (ix1 e) ?_
    intro b; match b with
    | ⟨0, _⟩ => rfl

/-- The range mask spread over the columns is 1 at every index. -/
theorem spreadMask_apply (idxs : IVec S1x1024 32) (a : Fin 1) (i j : Fin 1024) (e : Fin 128) :
    broadcastInDim S1x1024x1024x128 ![0, 1, 2] bcast_S1x1024x1024_S1x1024x1024x128_0_1_2
      (inRange (startIdx (rowWords idxs))) (ix4 a i j e) = 1#1 := by
  refine (broadcastInDim_apply _ _ _ (ix4 a i j e) (ix3 0 i j) ?_).trans (inRange_eq_one _ (startIdx_rowWords_range idxs) _)
  intro b; match b with
  | ⟨0, _⟩ => rfl
  | ⟨1, _⟩ => rfl
  | ⟨2, _⟩ => rfl

/-- The clamp into [0, 64] leaves the row of a pair alone. -/
theorem clamp_pos (x y : BitVec 32) (h : min (posWord x y).toInt.toNat 64 < 65) :
    (⟨min (posWord x y).toInt.toNat 64, h⟩ : Fin 65) = pos x y := by
  apply Fin.ext
  show min (posWord x y).toInt.toNat 64 = (posWord x y).toNat
  have h1 := posWord_toInt_eq_toNat x y
  have h2 := posWord_toNat_lt x y
  rw [h1, Int.toNat_natCast]
  omega

/-- The lookup at (i, j, e): the transposed weights at the pair's row and column e. -/
theorem taken_apply (idxs : IVec S1x1024 32) (W : FVec Ideal S128x65 .f32) (a : Fin 1) (i j : Fin 1024) (e : Fin 128) :
    Host.gather gather_S65x128_S1x1024x1024x1_S1x1024x1024x128_3_0_n_n_0_3_1128
        (transpose S65x128 [1, 0] W transposes_S128x65_S65x128_1_0) (startIdx (rowWords idxs)) (ix4 a i j e)
      = W (ix2 e (pos (idxs (ix2 0 i)) (idxs (ix2 0 j)))) := by
  rw [gather_apply]
  have hs := startIdx_rowWords_apply idxs a i j 0
  have hrow : (⟨min (startIdx (rowWords idxs) (ix4 a i j 0)).toInt.toNat 64, by omega⟩ : Fin 65)
      = pos (idxs (ix2 0 i)) (idxs (ix2 0 j)) := by
    have := clamp_pos (idxs (ix2 0 i)) (idxs (ix2 0 j)) (by omega)
    rw [← this]
    apply Fin.ext
    show min (startIdx (rowWords idxs) (ix4 a i j 0)).toInt.toNat 64 = min (posWord (idxs (ix2 0 i)) (idxs (ix2 0 j))).toInt.toNat 64
    rw [hs]
  rw [hrow]
  exact transpose_ix2_apply W transposes_S128x65_S65x128_1_0 _ e

/-- The result at an index, by its defining equation. -/
theorem refOut_apply (idxs : IVec S1x1024 32) (W : FVec Ideal S128x65 .f32) (bias : FVec Ideal S128 .f32) (k : S1x1024x1024x128.Idx) :
    refOut idxs W bias k
      = Scalar.select
          (broadcastInDim S1x1024x1024x128 ![0, 1, 2] bcast_S1x1024x1024_S1x1024x1024x128_0_1_2 (inRange (startIdx (rowWords idxs))) k)
          (Host.gather gather_S65x128_S1x1024x1024x1_S1x1024x1024x128_3_0_n_n_0_3_1128
            (transpose S65x128 [1, 0] W transposes_S128x65_S65x128_1_0) (startIdx (rowWords idxs)) k)
          (broadcastInDim S1x1024x1024x128 ![] bcast_S_S1x1024x1024x128 (constant (F := Ideal) S_ .f32 0x7FC00000#32) k)
        + broadcastInDim S1x1024x1024x128 ![0, 1, 2, 3] bcast_S1x1x1x128_S1x1024x1024x128_0_1_2_3
            (broadcastInDim S1x1x1x128 ![3] bcast_S128_S1x1x1x128_3 bias) k := by
  unfold refOut
  rw [addf_apply, select_apply]

/-- The reference's result is the table of relative-position embeddings. -/
theorem refOut_eq (idxs : IVec S1x1024 32) (W : FVec Ideal S128x65 .f32) (bias : FVec Ideal S128 .f32) :
    refOut idxs W bias = G idxs W bias := by
  funext k
  obtain ⟨a, i, j, e, rfl⟩ : ∃ (a : Fin 1) (i j : Fin 1024) (e : Fin 128), k = ix4 a i j e := ⟨k 0, k 1, k 2, k 3, eq_ix4 k⟩
  rw [refOut_apply, spreadMask_apply, select_one, taken_apply, spreadBias_apply]
  rfl

end Cert.ReferenceIdeal.RefOut

end
-- ==== Proof.RefFold.lean ====
/-
  The fold of the reference's line of host operations, read at the result buffer and at the three arguments.

  The line is cut into three stretches: the first seventeen operations leave the row words of the index row and the
  transposed weights; the next twenty-three (the lookup) leave, from any table of row words and any table, the rows the
  row words name, kept where the range mask is 1; the last three add the bias spread along the leading axes. The fold
  of a concatenation is the second line's fold over the first's, so the fold of the whole line at the result buffer is
  the composition of the three, which is the reference's pure function of the arguments. No operation writes an
  argument, so each argument's buffer keeps its launch contents.

  A value of a called function's body sits in its buffer through a transport along the equation between the value's
  type and the buffer's; at these buffers both types are the same, and such a transport is the identity.
-/
import proofs.«430985_j23416161698179_1_alg».proof.Proof.RefRun
import proofs.«430985_j23416161698179_1_alg».proof.Proof.RefOut

noncomputable section

namespace Cert.ReferenceIdeal.RefFold

open Cert.ReferenceIdeal Cert.ReferenceIdeal.Gen Idealize.ShloMosaic Idealize.ShloMosaic.TcCoe Idealize.SL.Sem Idealize.ShloMosaic.StableHlo

/-! ## The line in three stretches -/

section Stretches
variable {F : FTy → Type} [FloatOps F]

/-- The first seventeen operations: the row words and the transposed weights. -/
abbrev opsA : List (HloOp τ sig (Elt F)) :=
  [ unary main_arg0 main_v0 (broadcastInDim S1x1x1024 ![0, 2] bcast_S1x1024_S1x1x1024_0_2 : (⟨S1x1024, .i32⟩ : BufTy).Contents (Elt F) → (⟨S1x1x1024, .i32⟩ : BufTy).Contents (Elt F)),
    unary main_arg0 main_v1 (broadcastInDim S1x1024x1 ![0, 1] bcast_S1x1024_S1x1024x1_0_1 : (⟨S1x1024, .i32⟩ : BufTy).Contents (Elt F) → (⟨S1x1024x1, .i32⟩ : BufTy).Contents (Elt F)),
    unary main_v0 main_v2 (broadcastInDim S1x1024x1024 ![0, 1, 2] bcast_S1x1x1024_S1x1024x1024_0_1_2 : (⟨S1x1x1024, .i32⟩ : BufTy).Contents (Elt F) → (⟨S1x1024x1024, .i32⟩ : BufTy).Contents (Elt F)),
    unary main_v1 main_v3 (broadcastInDim S1x1024x1024 ![0, 1, 2] bcast_S1x1024x1_S1x1024x1024_0_1_2 : (⟨S1x1024x1, .i32⟩ : BufTy).Contents (Elt F) → (⟨S1x1024x1024, .i32⟩ : BufTy).Contents (Elt F)),
    binary main_v2 main_v3 main_v4 (subi : (⟨S1x1024x1024, .i32⟩ : BufTy).Contents (Elt F) → (⟨S1x1024x1024, .i32⟩ : BufTy).Contents (Elt F) → (⟨S1x1024x1024, .i32⟩ : BufTy).Contents (Elt F)),
    nullary main_c (constantI S_ 32 4294967264#32),
    nullary main_c_0 (constantI S_ 32 32#32),
    TRef.unary (.of main_c) main_call0.v0 id,
    TRef.unary main_call0.v0 main_call0.v1 (broadcastInDim S1x1024x1024 ![] bcast_S_S1x1024x1024),
    TRef.binary main_call0.v1 (.of main_v4) main_call0.v2 maxsi,
    TRef.unary (.of main_c_0) main_call0.v3 id,
    TRef.unary main_call0.v3 main_call0.v4 (broadcastInDim S1x1024x1024 ![] bcast_S_S1x1024x1024),
    TRef.binary main_call0.v4 main_call0.v2 main_call0.v5 minsi,
    nullary main_c_1 (constantI S_ 32 32#32),
    unary main_c_1 main_v6 (broadcastInDim S1x1024x1024 ![] bcast_S_S1x1024x1024 : (⟨S_, .i32⟩ : BufTy).Contents (Elt F) → (⟨S1x1024x1024, .i32⟩ : BufTy).Contents (Elt F)),
    binary main_v5 main_v6 main_v7 (addi : (⟨S1x1024x1024, .i32⟩ : BufTy).Contents (Elt F) → (⟨S1x1024x1024, .i32⟩ : BufTy).Contents (Elt F) → (⟨S1x1024x1024, .i32⟩ : BufTy).Contents (Elt F)),
    unary main_arg1 main_v8 ((transpose S65x128 [1, 0] · transposes_S128x65_S65x128_1_0) : (⟨S128x65, .f32⟩ : BufTy).Contents (Elt F) → (⟨S65x128, .f32⟩ : BufTy).Contents (Elt F)) ]

/-- The next twenty-three: the lookup. -/
abbrev opsB : List (HloOp τ sig (Elt F)) :=
  [ TRef.nullary main_call1.c (constantI S_ 32 0#32),
    TRef.unary main_call1.c main_call1.v0 (broadcastInDim S1x1024x1024 ![] bcast_S_S1x1024x1024),
    TRef.binary (.of main_v7) main_call1.v0 main_call1.v1 (cmpi .slt),
    TRef.nullary main_call1.c_0 (constantI S_ 32 65#32),
    TRef.unary main_call1.c_0 main_call1.v2 (broadcastInDim S1x1024x1024 ![] bcast_S_S1x1024x1024),
    TRef.binary (.of main_v7) main_call1.v2 main_call1.v3 addi,
    TRef.ternary main_call1.v1 main_call1.v3 (.of main_v7) main_call1.call0.v0 select,
    TRef.unary main_call1.call0.v0 main_call1.v5 (broadcastInDim S1x1024x1024x1 ![0, 1, 2] bcast_S1x1024x1024_S1x1024x1024x1_0_1_2),
    TRef.nullary main_call1.c_1 (constantI S1 32 64#32),
    TRef.nullary main_call1.c_2 (constantI S_ 32 0#32),
    TRef.unary main_call1.c_2 main_call1.v6 (broadcastInDim S1x1024x1024x1 ![] bcast_S_S1x1024x1024x1),
    TRef.binary main_call1.v5 main_call1.v6 main_call1.v7 (cmpi .sge),
    TRef.unary main_call1.c_1 main_call1.v8 (broadcastInDim S1x1x1x1 ![3] bcast_S1_S1x1x1x1_3),
    TRef.unary main_call1.v8 main_call1.v9 (broadcastInDim S1x1024x1024x1 ![0, 1, 2, 3] bcast_S1x1x1x1_S1x1024x1024x1_0_1_2_3),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S1x1024x1024x1_S1x1024x1024_d3 h_S_),
    TRef.binary (.of main_v8) main_call1.v5 main_call1.v13 (fun x i => Host.gather gather_S65x128_S1x1024x1024x1_S1x1024x1024x128_3_0_n_n_0_3_1128 x i),
    TRef.unary main_call1.v12 main_call1.v14 (broadcastInDim S1x1024x1024x128 ![0, 1, 2] bcast_S1x1024x1024_S1x1024x1024x128_0_1_2),
    TRef.nullary main_call1.cst (constant S_ .f32 0x7FC00000#32),
    TRef.unary main_call1.cst main_call1.v15 (broadcastInDim S1x1024x1024x128 ![] bcast_S_S1x1024x1024x128),
    TRef.ternary main_call1.v14 main_call1.v13 main_call1.v15 main_call1.v16 select ]

/-- The last three: the bias spread and added. -/
abbrev opsC : List (HloOp τ sig (Elt F)) :=
  [ unary main_arg2 main_v10 (broadcastInDim S1x1x1x128 ![3] bcast_S128_S1x1x1x128_3 : (⟨S128, .f32⟩ : BufTy).Contents (Elt F) → (⟨S1x1x1x128, .f32⟩ : BufTy).Contents (Elt F)),
    unary main_v10 main_v11 (broadcastInDim S1x1024x1024x128 ![0, 1, 2, 3] bcast_S1x1x1x128_S1x1024x1024x128_0_1_2_3 : (⟨S1x1x1x128, .f32⟩ : BufTy).Contents (Elt F) → (⟨S1x1024x1024x128, .f32⟩ : BufTy).Contents (Elt F)),
    binary main_v9 main_v11 main_v12 (addf : (⟨S1x1024x1024x128, .f32⟩ : BufTy).Contents (Elt F) → (⟨S1x1024x1024x128, .f32⟩ : BufTy).Contents (Elt F) → (⟨S1x1024x1024x128, .f32⟩ : BufTy).Contents (Elt F)) ]

theorem ops_split : (RefRun.ops : List (HloOp τ sig (Elt F))) = opsA ++ (opsB ++ opsC) := rfl

end Stretches

/-- The contents after two lines run one after the other: the second line's fold over the first's. -/
theorem after_append {Val : EltTy → Type} : ∀ (l₁ l₂ : List (HloOp τ sig Val)) (V : Valuation τ sig Val),
    after (l₁ ++ l₂) V = after l₂ (after l₁ V)
  | [], _, _ => rfl
  | op :: l, l₂, V => by rw [List.cons_append, after_cons, after_cons, after_append l l₂]

/-- A transport along an equation of a type with itself is the identity. -/
theorem cast_id {α : Sort _} (h : α = α) (a : α) : cast h a = a := eq_of_heq (cast_heq h a)

/-! ## Each stretch read back -/

set_option maxRecDepth 8192 in
/-- After the first stretch the row-word buffer holds the row words of the index row. -/
theorem A_v7 (V : Valuation τ sig (Elt Ideal)) :
    after (opsA (F := Ideal)) V (main_v7 : DevRef τ sig) = RefOut.rowWords (V (main_arg0 : DevRef τ sig)) := by
  after_results_simp
  simp only [TRef.ofBuf, TRef.toBuf, cast_cast, cast_id, id_eq]
  unfold RefOut.rowWords
  rfl

set_option maxRecDepth 8192 in
/-- After the first stretch the table buffer holds the transposed weights. -/
theorem A_v8 (V : Valuation τ sig (Elt Ideal)) :
    after (opsA (F := Ideal)) V (main_v8 : DevRef τ sig)
      = transpose S65x128 [1, 0] (V (main_arg1 : DevRef τ sig)) transposes_S128x65_S65x128_1_0 := by
  after_results_simp

set_option maxRecDepth 8192 in
theorem A_arg2 (V : Valuation τ sig (Elt Ideal)) :
    after (opsA (F := Ideal)) V (main_arg2 : DevRef τ sig) = V (main_arg2 : DevRef τ sig) := by
  after_results_simp

set_option maxRecDepth 8192 in
/-- After the lookup its result buffer holds: where the range mask of the start indices is 1 the table's rows at the
    start indices, the fill constant elsewhere; the start indices made from the row-word buffer. -/
theorem B_v9 (V : Valuation τ sig (Elt Ideal)) :
    after (opsB (F := Ideal)) V (main_v9 : DevRef τ sig)
      = select
          (broadcastInDim S1x1024x1024x128 ![0, 1, 2] bcast_S1x1024x1024_S1x1024x1024x128_0_1_2
            (RefOut.inRange (RefOut.startIdx (V (main_v7 : DevRef τ sig)))))
          (Host.gather gather_S65x128_S1x1024x1024x1_S1x1024x1024x128_3_0_n_n_0_3_1128
            (V (main_v8 : DevRef τ sig)) (RefOut.startIdx (V (main_v7 : DevRef τ sig))))
          (broadcastInDim S1x1024x1024x128 ![] bcast_S_S1x1024x1024x128 (constant (F := Ideal) S_ .f32 0x7FC00000#32)) := by
  after_results_simp
  simp only [TRef.ofBuf, TRef.toBuf, cast_cast, cast_id, id_eq]
  unfold RefOut.inRange RefOut.startIdx
  rfl

set_option maxRecDepth 8192 in
theorem B_arg2 (V : Valuation τ sig (Elt Ideal)) :
    after (opsB (F := Ideal)) V (main_arg2 : DevRef τ sig) = V (main_arg2 : DevRef τ sig) := by
  after_results_simp

/-- After the last stretch the result buffer holds the lookup's result plus the bias spread along the leading axes. -/
theorem C_v12 (V : Valuation τ sig (Elt Ideal)) :
    after (opsC (F := Ideal)) V (main_v12 : DevRef τ sig)
      = addf (F := Ideal) (φ := .f32) (V (main_v9 : DevRef τ sig))
          (broadcastInDim S1x1024x1024x128 ![0, 1, 2, 3] bcast_S1x1x1x128_S1x1024x1024x128_0_1_2_3
            (broadcastInDim S1x1x1x128 ![3] bcast_S128_S1x1x1x128_3 (V (main_arg2 : DevRef τ sig)))) := by
  after_results_simp

/-! ## The whole line -/

/-- The fold of the whole line at the result buffer is the reference's pure function of the three arguments. -/
theorem out_eq (V : Valuation τ sig (Elt Ideal)) :
    after (RefRun.ops (F := Ideal)) V (main_v12 : DevRef τ sig)
      = RefOut.refOut (V (main_arg0 : DevRef τ sig)) (V (main_arg1 : DevRef τ sig)) (V (main_arg2 : DevRef τ sig)) := by
  rw [ops_split, after_append, after_append, C_v12, B_v9, B_arg2, A_v7, A_v8, A_arg2]
  unfold RefOut.refOut
  rfl

set_option maxRecDepth 8192 in
theorem arg0_eq (V : Valuation τ sig (Elt Ideal)) :
    after (RefRun.ops (F := Ideal)) V (main_arg0 : DevRef τ sig) = V (main_arg0 : DevRef τ sig) := by
  after_results_simp

set_option maxRecDepth 8192 in
theorem arg1_eq (V : Valuation τ sig (Elt Ideal)) :
    after (RefRun.ops (F := Ideal)) V (main_arg1 : DevRef τ sig) = V (main_arg1 : DevRef τ sig) := by
  after_results_simp

set_option maxRecDepth 8192 in
theorem arg2_eq (V : Valuation τ sig (Elt Ideal)) :
    after (RefRun.ops (F := Ideal)) V (main_arg2 : DevRef τ sig) = V (main_arg2 : DevRef τ sig) := by
  after_results_simp

end Cert.ReferenceIdeal.RefFold

end
-- ==== Proof.RefValue.lean ====
/-
  The reference's run, read back as the table of relative-position embeddings.

  Every weakly fair execution of the reference's @main terminates with each buffer at the fold of its line of host
  operations over the launch contents. At the result buffer that fold is the reference's pure function of the three
  arguments, which is, index by index, W (e, pos (idxs i) (idxs j)) + b e; at each argument's buffer it is the launch
  contents, unchanged.
-/
import proofs.«430985_j23416161698179_1_alg».proof.Proof.RefRun
import proofs.«430985_j23416161698179_1_alg».proof.Proof.RefFold
import proofs.«430985_j23416161698179_1_alg».proof.Proof.RefOut
import proofs.«430985_j23416161698179_1_alg».proof.Proof.RelPos

noncomputable section

namespace Cert.ReferenceIdeal.RefValue

open Cert.ReferenceIdeal Cert.ReferenceIdeal.Gen Idealize.ShloMosaic Idealize.ShloMosaic.TcCoe Idealize.SL.Sem Idealize.ShloMosaic.StableHlo

/-- At the compiled mesh, at the extended reals, from any memory with zero counters: every weakly fair execution of the
    reference's @main terminates with the result buffer at the table of relative-position embeddings of the three
    arguments' launch contents, and the three arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v12)
          = Cert.RelPos.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c main_v12).trans ((RefFold.out_eq (launchContents m c)).trans (RefOut.refOut_eq _ _ _)),
        (h c main_arg0).trans (RefFold.arg0_eq (launchContents m c)),
        (h c main_arg1).trans (RefFold.arg1_eq (launchContents m c)),
        (h c main_arg2).trans (RefFold.arg2_eq (launchContents m c))⟩)
    (RefRun.run_main m ρ)

end Cert.ReferenceIdeal.RefValue

end
-- ==== Proof.lean ====
/- The proof of `Cert.Claim` (proofs.«430985_j23416161698179_1_alg».proof.Defs): a table of relative-position
   embeddings computed two ways.

   For a row of 1024 index words, a weight matrix W (128 × 65) and a bias b (128), both programs produce the array
   (1 × 1024 × 1024 × 128) whose entry (0, i, j, e) is  W (e, pos) + b e  with  pos = clip (idxs j − idxs i, −32, 32) + 32,
   a row of the transposed weights (Proof/RelPos.lean: the clipped gap lies in [−32, 32] whatever the two words are, so
   pos lies in [0, 64]). The reference reads that row with a gather: its index is never negative and never past 64, so
   the wrap of negative indices, the gather's clamp and the out-of-range fill all leave it alone (Proof/RefValue.lean,
   over the reference's run with its three outlined functions unfolded at their calls, Proof/RefRun.lean). The kernel,
   on an 8 × 8 grid of 128 × 128 tiles, multiplies a one-hot row (the 65 indicators [pos = n]) by the transposed weights:
   the sum's 64 other terms are 0 · x = 0 on the extended reals, so the product's entry is the same row's entry
   (Proof/KernelEntry.lean), and the tiles cover the array (Proof/KernelArray.lean). Neither side needs the inputs to
   be finite, so the precondition is never opened. The three frames are the generated frames of the two kernel programs
   and the reference's run with its result dropped; nothing was rewritten by the idealization, so `preserves` is trivial. -/
import proofs.«430985_j23416161698179_1_alg».proof.Defs
import proofs.«430985_j23416161698179_1_alg».proof.Proof.Gen.Kernel
import proofs.«430985_j23416161698179_1_alg».proof.Proof.Gen.Kernel.Skeleton
import proofs.«430985_j23416161698179_1_alg».proof.Proof.Gen.Kernel.Launch
import proofs.«430985_j23416161698179_1_alg».proof.Proof.Gen.Kernel.Points
import proofs.«430985_j23416161698179_1_alg».proof.Proof.Gen.Kernel.Frame
import proofs.«430985_j23416161698179_1_alg».proof.Proof.Gen.KernelIdeal
import proofs.«430985_j23416161698179_1_alg».proof.Proof.Gen.KernelIdeal.Skeleton
import proofs.«430985_j23416161698179_1_alg».proof.Proof.Gen.KernelIdeal.Launch
import proofs.«430985_j23416161698179_1_alg».proof.Proof.Gen.KernelIdeal.Points
import proofs.«430985_j23416161698179_1_alg».proof.Proof.Gen.KernelIdeal.Frame
import proofs.«430985_j23416161698179_1_alg».proof.Proof.Gen.KernelIdeal.Value
import proofs.«430985_j23416161698179_1_alg».proof.Proof.Gen.ReferenceIdeal
import proofs.«430985_j23416161698179_1_alg».proof.Proof.Gen.Pre_finite_inputs
import proofs.«430985_j23416161698179_1_alg».proof.Proof.KernelArray
import proofs.«430985_j23416161698179_1_alg».proof.Proof.RefValue
import Idealize.ShloMosaic.Adequacy
import Idealize.ShloMosaic.Init

noncomputable section

namespace Cert.Proof

open Idealize.ShloMosaic Idealize.SL.Sem

/-- The word-level kernel runs and leaves its arguments unchanged: its generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- From memories agreeing on the three arguments both programs end with the result array at ONE function of the
    arguments, `RelPos.G`: the kernel's tiles cover it (`Arr.run`), the reference's gather reads it (`RefValue.run`). -/
theorem algebraic : Cert.algebraic_KernelIdeal_ReferenceIdeal := by
  intro m ρ m' ρ' _ hagree
  refine ⟨fun c => Cert.KernelIdeal.Arr.result m c, Cert.KernelIdeal.Arr.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
